-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x10 : Shape := ⟨2, ![128, 10]⟩
abbrev S10x10 : Shape := ⟨2, ![10, 10]⟩
abbrev S10x1 : Shape := ⟨2, ![10, 1]⟩
abbrev S3200000 : Shape := ⟨1, ![3200000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S10x10 : S_.BroadcastsInDim S10x10 (![] : Fin 0 → Fin S10x10.rank)
  reducesTo_S10x10_S_d0_1 : S10x10.ReducesTo [0, 1] S_
  bcast_S_S10x1 : S_.BroadcastsInDim S10x1 (![] : Fin 0 → Fin S10x1.rank)
  reducesTo_S10x1_S_d0_1 : S10x1.ReducesTo [0, 1] S_

variable [Facts]

def fn_part1 {F : FTy → Type} [FloatOps F] (main_v13 : IVec S_ 1) (main_v16 : IVec S10x1 1) : IVec S_ 1 :=
  let main_c_5 : IVec S_ 1 := constantI S_ 1 1#1
  let main_v17 : IVec S_ 1 := (fun x v => Host.reduce IntOp.andi x v reducesTo_S10x1_S_d0_1 h_S_) main_v16 main_c_5
  let main_v18 : IVec S_ 1 := andi main_v13 main_v17
  main_v18

def fn {F : FTy → Type} [FloatOps F] (main_arg0 : FVec F S100000x128 .f32) (main_arg1 : FVec F S128x10 .f32) (main_arg2 : FVec F S10x10 .f32) (main_arg3 : FVec F S10x1 .f32) (main_arg4 : IVec S3200000 32) (main_arg5 : IVec S3200000 32) (main_arg6 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S10x10 .f32 := Host.absf main_arg2
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  let main_v14 : FVec F S10x1 .f32 := Host.absf main_arg3
  let main_cst_4 : FVec F S_ .f32 := constant S_ .f32 0x7F800000#32
  let main_v15 : FVec F S10x1 .f32 := broadcastInDim S10x1 ![] bcast_S_S10x1 main_cst_4
  let main_v16 : IVec S10x1 1 := cmpf .olt main_v14 main_v15
  fn_part1 (F := F) main_v13 main_v16
-- ==== Kernel.lean ====
abbrev S100000x128 : Shape := ⟨2, ![100000, 128]⟩
abbrev S128x10 : Shape := ⟨2, ![128, 10]⟩
abbrev S10x10 : Shape := ⟨2, ![10, 10]⟩
abbrev S10x1 : Shape := ⟨2, ![10, 1]⟩
abbrev S3200000 : Shape := ⟨1, ![3200000]⟩
abbrev S100000 : Shape := ⟨1, ![100000]⟩
abbrev S100000x10 : Shape := ⟨2, ![100000, 10]⟩
abbrev S10000x128 : Shape := ⟨2, ![10000, 128]⟩
abbrev S10000x10 : Shape := ⟨2, ![10000, 10]⟩
abbrev S_ : Shape := ⟨0, ![]⟩
abbrev S3200000x1 : Shape := ⟨2, ![3200000, 1]⟩
abbrev S3200000x10 : Shape := ⟨2, ![3200000, 10]⟩
abbrev S102400x10 : Shape := ⟨2, ![102400, 10]⟩
abbrev S102400 : Shape := ⟨1, ![102400]⟩
abbrev S1x102400 : Shape := ⟨2, ![1, 102400]⟩
abbrev S64x1 : Shape := ⟨2, ![64, 1]⟩
abbrev S12800x10 : Shape := ⟨2, ![12800, 10]⟩
abbrev S1x12800 : Shape := ⟨2, ![1, 12800]⟩
abbrev S64x10 : Shape := ⟨2, ![64, 10]⟩
abbrev S64x12800 : Shape := ⟨2, ![64, 12800]⟩
abbrev S64 : Shape := ⟨1, ![64]⟩

abbrev nBuf : Space → Nat
  | .hbm => 46
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S128x10, .f32⟩
  | .hbm, ⟨2, _⟩ => ⟨S10x10, .f32⟩
  | .hbm, ⟨3, _⟩ => ⟨S10x1, .f32⟩
  | .hbm, ⟨4, _⟩ => ⟨S3200000, .i32⟩
  | .hbm, ⟨5, _⟩ => ⟨S3200000, .i32⟩
  | .hbm, ⟨6, _⟩ => ⟨S100000, .i32⟩
  | .hbm, ⟨7, _⟩ => ⟨S100000x10, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x10, .f32⟩
  | .hbm, ⟨17, _⟩ => ⟨S_, .f32⟩
  | .hbm, ⟨18, _⟩ => ⟨S100000x10, .f32⟩
  | .hbm, ⟨19, _⟩ => ⟨S3200000x1, .i32⟩
  | .hbm, ⟨20, _⟩ => ⟨S100000x10, .f32⟩
  | .hbm, ⟨21, _⟩ => ⟨S_, .f32⟩
  | .hbm, ⟨22, _⟩ => ⟨S100000x10, .f32⟩
  | .hbm, ⟨23, _⟩ => ⟨S100000x10, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x10, .f32⟩
  | .hbm, ⟨33, _⟩ => ⟨S_, .f32⟩
  | .hbm, ⟨34, _⟩ => ⟨S100000x10, .f32⟩
  | .hbm, ⟨35, _⟩ => ⟨S3200000x1, .i32⟩
  | .hbm, ⟨36, _⟩ => ⟨S100000x10, .f32⟩
  | .hbm, ⟨37, _⟩ => ⟨S10x1, .f32⟩
  | .hbm, ⟨38, _⟩ => ⟨S_, .i32⟩
  | .hbm, ⟨39, _⟩ => ⟨S_, .f32⟩
  | .hbm, ⟨40, _⟩ => ⟨S102400x10, .f32⟩
  | .hbm, ⟨41, _⟩ => ⟨S_, .i32⟩
  | .hbm, ⟨42, _⟩ => ⟨S_, .i32⟩
  | .hbm, ⟨43, _⟩ => ⟨S102400, .i32⟩
  | .hbm, ⟨44, _⟩ => ⟨S1x102400, .i32⟩
  | .hbm, ⟨45, _⟩ => ⟨S64x1, .f32⟩
  | .local _ .vmem, ⟨0, _⟩ => ⟨S10000x128, .f32⟩
  | .local _ .vmem, ⟨1, _⟩ => ⟨S10000x128, .f32⟩
  | .local _ .vmem, ⟨2, _⟩ => ⟨S128x10, .f32⟩
  | .local _ .vmem, ⟨3, _⟩ => ⟨S10000x10, .f32⟩
  | .local _ .vmem, ⟨4, _⟩ => ⟨S10000x10, .f32⟩
  | .local _ .vmem, ⟨5, _⟩ => ⟨S12800x10, .f32⟩
  | .local _ .vmem, ⟨6, _⟩ => ⟨S12800x10, .f32⟩
  | .local _ .vmem, ⟨7, _⟩ => ⟨S1x12800, .i32⟩
  | .local _ .vmem, ⟨8, _⟩ => ⟨S1x12800, .i32⟩
  | .local _ .vmem, ⟨9, _⟩ => ⟨S10x1, .f32⟩
  | .local _ .vmem, ⟨10, _⟩ => ⟨S64x1, .f32⟩
  | .local _ .vmem, ⟨11, _⟩ => ⟨S64x10, .f32⟩
  | .local _ .vmem, ⟨12, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_call1_v0 : Ref sig .tc := ⟨.hbm, 39, rfl⟩
abbrev main_v23 : Ref sig .tc := ⟨.hbm, 40, rfl⟩
abbrev main_c_5 : Ref sig .tc := ⟨.hbm, 41, rfl⟩
abbrev main_call2_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_13 : BitVec 32 := 0#32
  let v29 : BitVec 1 := Scalar.cmpi .ne v28 c0_i32_13
  v29

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S12800x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x12800 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x10_S128x10_0_0 : ∀ a, (![0, 0] : Fin 2 → Nat) a + S128x10.size a ≤ S128x10.size a
  h_S128x10 : 0 < S128x10.numel
  inb_S10000x10_S10000x10_0_0 : ∀ a, (![0, 0] : Fin 2 → Nat) a + S10000x10.size a ≤ S10000x10.size a
  h_S10000x10 : 0 < S10000x10.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x10 : S_.BroadcastsInDim S100000x10 (![] : Fin 0 → Fin S100000x10.rank)
  pads_S100000x10_S102400x10_024000_000 : S100000x10.Pads (![0, 0] : Fin 2 → Nat) ![2400, 0] ![0, 0] S102400x10
  h_S_ : 0 < S_.numel
  pads_S100000_S102400_024000 : S100000.Pads (![0] : Fin 1 → Nat) ![2400] ![0] S102400
  shapeCasts_S102400_S1x102400 : S102400.ShapeCasts S1x102400
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S12800x10_S12800x10_0_0 : ∀ a, (![0, 0] : Fin 2 → Nat) a + S12800x10.size a ≤ S12800x10.size a
  h_S12800x10 : 0 < S12800x10.numel
  shapeCasts_S12800x10_S12800x10 : S12800x10.ShapeCasts S12800x10
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  iota_S64x12800_d0_w32 : S64x12800.Iotas .tc 32 [0]
  broadcasts_S1x12800_S64x12800 : S1x12800.Broadcasts S64x12800
  natLt_1_32 : 1 < 32
  reduces_S64x12800_S64 : S64x12800.Reduces [1] S64
  shapeCasts_S64_S64x1 : S64.ShapeCasts S64x1
  broadcasts_S64x1_S64x10 : S64x1.Broadcasts S64x10
  inb_S10x1_S10x1_0_0 : ∀ a, (![0, 0] : Fin 2 → Nat) a + S10x1.size a ≤ S10x1.size a
  h_S10x1 : 0 < S10x1.numel
  shapeCasts_S10x1_S10x1 : S10x1.ShapeCasts S10x1
  dot_S10000x128_S128x10_S10000x10_1_0_0_1_n_n_wf : DotDims.WF S10000x128 S128x10 S10000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S10x10_S10x1_S10x1_1_0_0_1_n_n_wf : DotDims.WF S10x10 S10x1 S10x1 [1] [0] [0] [1] [] []
  dot_S64x12800_S12800x10_S64x10_1_0_0_1_n_n_wf : DotDims.WF S64x12800 S12800x10 S64x10 [1] [0] [0] [1] [] []
  dot_S64x10_S10x1_S64x1_1_0_0_1_n_n_wf : DotDims.WF S64x10 S10x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10.size a ≤ S128x10.size a
  hwx0_1 : ∀ i : grid0.Coords, EltTy.bits .f32 = 32 ∨ (Rect.block (s := S128x10) S128x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x10.size a ≤ S100000x10.size a
  hwx0_2 : ∀ i : grid0.Coords, EltTy.bits .f32 = 32 ∨ (Rect.block (s := S100000x10) S10000x10.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x10.size a ≤ S102400x10.size a
  hwx1_0 : ∀ i : grid1.Coords, EltTy.bits .f32 = 32 ∨ (Rect.block (s := S102400x10) S12800x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x12800.size a ≤ S1x102400.size a
  hwx1_1 : ∀ i : grid1.Coords, EltTy.bits .i32 = 32 ∨ (Rect.block (s := S1x102400) S1x12800.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x1.size a ≤ S10x1.size a
  hwx1_2 : ∀ i : grid1.Coords, EltTy.bits .f32 = 32 ∨ (Rect.block (s := S10x1) S10x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)

variable [Facts₀]

def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S10x10_S10x1_S10x1_1_0_0_1_n_n : DotDims S10x10 S10x1 S10x1 where
  lhsContracting := [1]
  rhsContracting := [0]
  lhsNonContracting := [0]
  rhsNonContracting := [1]
  lhsBatch := []
  rhsBatch := []
  wf := dot_S10x10_S10x1_S10x1_1_0_0_1_n_n_wf
def dot_S64x12800_S12800x10_S64x10_1_0_0_1_n_n : DotDims S64x12800 S12800x10 S64x10 where
  lhsContracting := [1]
  rhsContracting := [0]
  lhsNonContracting := [0]
  rhsNonContracting := [1]
  lhsBatch := []
  rhsBatch := []
  wf := dot_S64x12800_S12800x10_S64x10_1_0_0_1_n_n_wf
def dot_S64x10_S10x1_S64x1_1_0_0_1_n_n : DotDims S64x10 S10x1 S64x1 where
  lhsContracting := [1]
  rhsContracting := [0]
  lhsNonContracting := [0]
  rhsNonContracting := [1]
  lhsBatch := []
  rhsBatch := []
  wf := dot_S64x10_S10x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S12800x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x12800.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S10x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S64x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S128x10 : Shape := ⟨2, ![128, 10]⟩
abbrev S10x10 : Shape := ⟨2, ![10, 10]⟩
abbrev S10x1 : Shape := ⟨2, ![10, 1]⟩
abbrev S3200000 : Shape := ⟨1, ![3200000]⟩
abbrev S100000 : Shape := ⟨1, ![100000]⟩
abbrev S100000x10 : Shape := ⟨2, ![100000, 10]⟩
abbrev S_ : Shape := ⟨0, ![]⟩
abbrev S3200000x1 : Shape := ⟨2, ![3200000, 1]⟩
abbrev S3200000x10 : Shape := ⟨2, ![3200000, 10]⟩
abbrev S64x10 : Shape := ⟨2, ![64, 10]⟩
abbrev S100000x1 : Shape := ⟨2, ![100000, 1]⟩
abbrev S64x1 : Shape := ⟨2, ![64, 1]⟩

abbrev nBuf : Space → Nat
  | .hbm => 62
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x10, .f32⟩
  | .hbm, ⟨2, _⟩ => ⟨S10x10, .f32⟩
  | .hbm, ⟨3, _⟩ => ⟨S10x1, .f32⟩
  | .hbm, ⟨4, _⟩ => ⟨S3200000, .i32⟩
  | .hbm, ⟨5, _⟩ => ⟨S3200000, .i32⟩
  | .hbm, ⟨6, _⟩ => ⟨S100000, .i32⟩
  | .hbm, ⟨7, _⟩ => ⟨S100000x10, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x10, .f32⟩
  | .hbm, ⟨17, _⟩ => ⟨S_, .f32⟩
  | .hbm, ⟨18, _⟩ => ⟨S100000x10, .f32⟩
  | .hbm, ⟨19, _⟩ => ⟨S3200000x1, .i32⟩
  | .hbm, ⟨20, _⟩ => ⟨S100000x10, .f32⟩
  | .hbm, ⟨21, _⟩ => ⟨S_, .f32⟩
  | .hbm, ⟨22, _⟩ => ⟨S100000x10, .f32⟩
  | .hbm, ⟨23, _⟩ => ⟨S100000x10, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x10, .f32⟩
  | .hbm, ⟨33, _⟩ => ⟨S_, .f32⟩
  | .hbm, ⟨34, _⟩ => ⟨S100000x10, .f32⟩
  | .hbm, ⟨35, _⟩ => ⟨S3200000x1, .i32⟩
  | .hbm, ⟨36, _⟩ => ⟨S100000x10, .f32⟩
  | .hbm, ⟨37, _⟩ => ⟨S100000x10, .f32⟩
  | .hbm, ⟨38, _⟩ => ⟨S_, .f32⟩
  | .hbm, ⟨39, _⟩ => ⟨S64x10, .f32⟩
  | .hbm, ⟨40, _⟩ => ⟨S100000x1, .i32⟩
  | .hbm, ⟨41, _⟩ => ⟨S64x10, .f32⟩
  | .hbm, ⟨42, _⟩ => ⟨S_, .f32⟩
  | .hbm, ⟨43, _⟩ => ⟨S100000x1, .f32⟩
  | .hbm, ⟨44, _⟩ => ⟨S_, .f32⟩
  | .hbm, ⟨45, _⟩ => ⟨S64x1, .f32⟩
  | .hbm, ⟨46, _⟩ => ⟨S100000x1, .i32⟩
  | .hbm, ⟨47, _⟩ => ⟨S64x1, .f32⟩
  | .hbm, ⟨48, _⟩ => ⟨S_, .f32⟩
  | .hbm, ⟨49, _⟩ => ⟨S64x1, .f32⟩
  | .hbm, ⟨50, _⟩ => ⟨S64x1, .f32⟩
  | .hbm, ⟨51, _⟩ => ⟨S64x10, .f32⟩
  | .hbm, ⟨52, _⟩ => ⟨S64x10, .f32⟩
  | .hbm, ⟨53, _⟩ => ⟨S64x1, .f32⟩
  | .hbm, ⟨54, _⟩ => ⟨S64x1, .f32⟩
  | .hbm, ⟨55, _⟩ => ⟨S64x1, .f32⟩
  | .hbm, ⟨56, _⟩ => ⟨S_, .f32⟩
  | .hbm, ⟨57, _⟩ => ⟨S64x1, .f32⟩
  | .hbm, ⟨58, _⟩ => ⟨S64x1, .f32⟩
  | .hbm, ⟨59, _⟩ => ⟨S_, .f32⟩
  | .hbm, ⟨60, _⟩ => ⟨S64x1, .f32⟩
  | .hbm, ⟨61, _⟩ => ⟨S64x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x10 : S_.BroadcastsInDim S100000x10 (![] : Fin 0 → Fin S100000x10.rank)
  bcast_S_S64x10 : S_.BroadcastsInDim S64x10 (![] : Fin 0 → Fin S64x10.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x10_0_1 : S64x1.BroadcastsInDim S64x10 (![0, 1] : Fin 2 → Fin S64x10.rank)
  dot_S100000x128_S128x10_S100000x10_1_0_0_1_n_n_wf : DotDims.WF S100000x128 S128x10 S100000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S100000x10_S10x10_S100000x10_1_0_0_1_n_n_wf : DotDims.WF S100000x10 S10x10 S100000x10 [1] [0] [0] [1] [] []
  scatter_S64x10_S100000x1_S100000x10_1_0_0_1_wf : ScatterDims.WF S64x10 S100000x1 S100000x10 [1] [0] [0] 1
  scatter_S64x1_S100000x1_S100000x1_1_0_0_1_wf : ScatterDims.WF S64x1 S100000x1 S100000x1 [1] [0] [0] 1
  dot_S64x10_S10x1_S64x1_1_0_0_1_n_n_wf : DotDims.WF S64x10 S10x1 S64x1 [1] [0] [0] [1] [] []

variable [Facts₀]

def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S100000x10_S10x10_S100000x10_1_0_0_1_n_n : DotDims S100000x10 S10x10 S100000x10 where
  lhsContracting := [1]
  rhsContracting := [0]
  lhsNonContracting := [0]
  rhsNonContracting := [1]
  lhsBatch := []
  rhsBatch := []
  wf := dot_S100000x10_S10x10_S100000x10_1_0_0_1_n_n_wf
def scatter_S64x10_S100000x1_S100000x10_1_0_0_1 : ScatterDims S64x10 S100000x1 S100000x10 where
  updateWindowDims := [1]
  insertedWindowDims := [0]
  scatterDimsToOperandDims := [0]
  indexVectorDim := 1
  wf := scatter_S64x10_S100000x1_S100000x10_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x10_S10x1_S64x1_1_0_0_1_n_n : DotDims S64x10 S10x1 S64x1 where
  lhsContracting := [1]
  rhsContracting := [0]
  lhsNonContracting := [0]
  rhsNonContracting := [1]
  lhsBatch := []
  rhsBatch := []
  wf := dot_S64x10_S10x1_S64x1_1_0_0_1_n_n_wf

class Facts : Prop extends Facts₀ where

variable [Facts]
-- ==== Proof.MmBody.lean ====
/-
  The first launch: ten grid points, point `t` multiplying rows `[10000 t, 10000 (t+1))` of the features by the
  whole weight matrix and writing the 10000 × 10 product block.

  Stated at a PARAMETER `V`, the TensorCore's buffer contents when the launch is entered. The body reads its two
  input blocks whole, stores one whole block (the matrix product into a zero accumulator), keeps nothing from
  point to point and touches no other buffer; so what it leaves in the output block is a function of the two
  input blocks at the point, and an input's staging buffer holds that input's block at every point, fetched
  there or not (the weight block is fetched once, and its block index never moves).
-/
import proofs.«431282_j74801150427782_3_alg».proof.Proof.Gen.KernelIdeal.Launch
import proofs.«431282_j74801150427782_3_alg».proof.Proof.Gen.KernelIdeal.Skeleton
import proofs.«431282_j74801150427782_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point, for any proof data whose array is `V`'s
    and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds its block at every point: fetched at the first point only, its block
    index never moves, so every later point finds the first point's block, which is its own. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S10000x128 := Rect.unit (s := S10000x128) ![0, 0] S10000x128.size inb_S10000x128_S10000x128_0_0
abbrev rW : Rect S128x10 := Rect.unit (s := S128x10) ![0, 0] S128x10.size inb_S128x10_S128x10_0_0
abbrev rO : Rect S10000x10 := Rect.unit (s := S10000x10) ![0, 0] S10000x10.size inb_S10000x10_S10000x10_0_0

/-- What the body leaves in the output block, from the two input blocks: its one whole-block store of the matrix
    product of the feature block and the weight block. -/
def outBlk (x0 : Vec F S10000x128 .f32) (x1 : Vec F S128x10 .f32) : Vec F S10000x10 .f32 :=
  View.canon [⟨rO, k0_pay1 (View.ld x0 rX) (View.ld x1 rW)⟩]

/-- The one store covers the block. -/
theorem cover_out (p0 : Vec F S10000x10 .f32) (y : S10000x10.Idx) :
    ∃ pc ∈ ([⟨rO, p0⟩] : List (View.Piece (Elt F) S10000x10 .f32)), y ∈ pc.1.set :=
  View.cover_of_tiled [⟨rO, p0⟩] S10000x10.size (by rfl) y

/-! ## The body's triple -/

set_option maxHeartbeats 1000000 in
/-- On whole staging memrefs, the inputs' at contents `x0`, `x1` and the output's at anything, the body runs to the
    continuation holding the inputs' as they were and the output's at `outBlk x0 x1`. -/
theorem sound_kernel (c : Dev nD) (E : Set ℕ) (i : grid0.Coords) (arg1 : Memref sig .tc .vmem S10000x128 .f32) (harg1 : arg1.IsWhole)
    (arg2 : Memref sig .tc .vmem S128x10 .f32) (harg2 : arg2.IsWhole) (arg3 : Memref sig .tc .vmem S10000x10 .f32) (harg3 : arg3.IsWhole)
    (x0 : Vec F S10000x128 .f32) (x1 : Vec F S128x10 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The launch's proof data -/

/-- The proof data on core `c`: the arrays as the launch finds them; after the body at point `t` each input's
    buffer at its block and the output's at `outBlk` of the input blocks; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Mm

end
-- ==== Proof.PoolBody.lean ====
/-
  The second launch: eight grid points, point `t` taking rows `[12800 t, 12800 (t+1))` of the padded aggregate
  and the matching 12800 padded graph ids.

  The body keeps two accumulators in buffers of its own from one point to the next: a 64 × 10 array of per-graph
  feature sums and a 64 × 1 array of per-graph node counts. At the first point it resets both to zero; at every
  point it adds the point's contribution (the one-hot matrix of the point's ids, 64 × 12800, times the point's
  rows; and that matrix's row sums); at the last point it divides the sums by the larger of the count and one,
  multiplies by the projection column, applies the logistic function and stores the 64 × 1 result block, which
  is written back there and nowhere else.

  So the body is run case by case (first point, a middle point, last point), and the launch's invariant names what
  the accumulators hold: anything before the first point, and after point `n` the values `accS n`, `accK n`
  defined by the recursion "one step from the reset value, then one step from the previous value". The three input
  windows hold their blocks at every point (the projection column is fetched once and its block index never moves);
  the output window is idle except at the last point. Everything is stated at a PARAMETER `V`, the buffer contents
  the launch finds, and for any float instance.
-/
import proofs.«431282_j74801150427782_3_alg».proof.Proof.Gen.KernelIdeal.Launch
import proofs.«431282_j74801150427782_3_alg».proof.Proof.Gen.KernelIdeal.Skeleton
import proofs.«431282_j74801150427782_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pl

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, decided over the grid -/

/-- The first branch (reset the two accumulators) is taken at the first point only. -/
abbrev condI (i : grid1.Coords) : Prop := (Scalar.cmpi .ne (Scalar.extui (Scalar.cmpi .eq (BitVec.ofNat 32 (i 0).val) 0#32)) 0#32) = 1#1
theorem hcondI : ∀ t : Fin cfg1.N, condI (grid1.coords t) ↔ t.val = 0 :=
  (by decide +kernel : ∀ t : Fin grid1.N, condI (grid1.coords t) ↔ t.val = 0)
/-- The second branch (divide, project, store the result) is taken at the last point only. -/
abbrev condF (i : grid1.Coords) : Prop := k1_cond2 i = 1#1
theorem hcondF : ∀ t : Fin cfg1.N, condF (grid1.coords t) ↔ t.val = 7 :=
  (by decide +kernel : ∀ t : Fin grid1.N, condF (grid1.coords t) ↔ t.val = 7)

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem idle_3 : ∀ t : Fin cfg1.N, ¬condF (grid1.coords t) → cfg1.idle 3 (grid1.coords t) = true := by decide +kernel
theorem noFlush_3 : ∀ t : Fin cfg1.N, ¬condF (grid1.coords t) → (cfg1.win 3).flush t = false := by decide +kernel
theorem live_3 : ∀ t : Fin cfg1.N, condF (grid1.coords t) → cfg1.idle 3 (grid1.coords t) = false := by decide +kernel

/-! ## The accesses -/

abbrev rH : Rect S12800x10 := Rect.unit (s := S12800x10) ![0, 0] S12800x10.size inb_S12800x10_S12800x10_0_0
abbrev rG : Rect S1x12800 := Rect.unit (s := S1x12800) ![0, 0] S1x12800.size inb_S1x12800_S1x12800_0_0
abbrev rS : Rect S64x10 := Rect.unit (s := S64x10) ![0, 0] S64x10.size inb_S64x10_S64x10_0_0
abbrev rK : Rect S64x1 := Rect.unit (s := S64x1) ![0, 0] S64x1.size inb_S64x1_S64x1_0_0
abbrev rC : Rect S10x1 := Rect.unit (s := S10x1) ![0, 0] S10x1.size inb_S10x1_S10x1_0_0

/-- The two accumulators: whole scoped buffers of the kernel's own. -/
abbrev scS : Memref sig .tc .vmem S64x10 .f32 := Memref.whole cc1_scratch0
abbrev scK : Memref sig .tc .vmem S64x1 .f32 := Memref.whole cc1_scratch1

theorem hz2 : (![0, 0] : Fin 2 → Nat) = fun _ => 0 := by
  funext a; fin_cases a <;> rfl

/-! ## The body's triple, case by case

The body resets both accumulators at the first point, adds the point's contribution to each at every point (the
one-hot matrix of the point's graph ids times the point's rows; the one-hot matrix's row sums), and at the last point
divides, projects and stores the result. Each case below runs the whole body on whole staging memrefs. -/

set_option maxHeartbeats 2000000 in
/-- The first point: whatever the accumulators held, they end at one step from the reset values. -/
theorem sound_first (c : Dev nD) (E : Set ℕ) (i : grid1.Coords) (arg1 : Memref sig .tc .vmem S12800x10 .f32) (harg1 : arg1.IsWhole)
    (arg2 : Memref sig .tc .vmem S1x12800 .i32) (harg2 : arg2.IsWhole) (arg3 : Memref sig .tc .vmem S10x1 .f32) (harg3 : arg3.IsWhole)
    (arg4 : Memref sig .tc .vmem S64x1 .f32) (harg4 : arg4.IsWhole) (arg5 : Memref sig .tc .vmem S64x10 .f32) (harg5 : arg5.IsWhole)
    (arg6 : Memref sig .tc .vmem S64x1 .f32) (harg6 : arg6.IsWhole) (hI : condI i) (hF : ¬condF i)
    (x0 : Vec F S12800x10 .f32) (x1 : Vec F S1x12800 .i32) (K : PUnit → sProp 𝕄) :
    iprop(owns (c : Thread nD τ) arg1 fullShare x0 ∗ owns (c : Thread nD τ) arg2 fullShare x1
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k1_pay4 x0 x1 k1_pay1) ∗ owns (c : Thread nD τ) arg6 fullShare (k1_pay5 x1 k1_pay2)) -∗ K ⟨⟩))
      ⊢ wp frame (wpE (defs₀ (F := F)) Variants.none c none) E (cc1__pool_kernel i arg1 harg1 arg2 harg2 arg3 harg3 arg4 harg4 arg5 harg5 arg6 harg6) K := by
  simp only [cc1__pool_kernel_eq_skeleton]; unfold cc1__pool_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hI | exact hF)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    sl_unfold_words
    rw [View.read_writes_eq_canon _ _ _ (fun y => ⟨_, List.mem_cons_self .., View.mem_set_unit_zero hz2 inb_S64x10_S64x10_0_0 y⟩), View.canon_cons_unit_zero hz2]
    simp only [View.readAt_eq_ld, View.ld_unit_zero (S := S12800x10) hz2, View.ld_unit_zero (S := S1x12800) hz2, View.ld_unit_zero (S := S64x10) hz2, View.ld_unit_zero (S := S64x1) hz2, View.ld_unit_zero (S := S10x1) hz2, View.readCov_unit_zero (S := S64x10) _ hz2, View.readCov_unit_zero (S := S64x1) _ hz2]
  · iexists _; isplitr
    swap; · iexact H6
    ipureintro
    sl_unfold_words
    rw [View.read_writes_eq_canon _ _ _ (fun y => ⟨_, List.mem_cons_self .., View.mem_set_unit_zero hz2 inb_S64x1_S64x1_0_0 y⟩), View.canon_cons_unit_zero hz2]
    simp only [View.readAt_eq_ld, View.ld_unit_zero (S := S12800x10) hz2, View.ld_unit_zero (S := S1x12800) hz2, View.ld_unit_zero (S := S64x10) hz2, View.ld_unit_zero (S := S64x1) hz2, View.ld_unit_zero (S := S10x1) hz2, View.readCov_unit_zero (S := S64x10) _ hz2, View.readCov_unit_zero (S := S64x1) _ hz2]

set_option maxHeartbeats 2000000 in
/-- A point that is neither first nor last: each accumulator ends one step from what it held. -/
theorem sound_mid (c : Dev nD) (E : Set ℕ) (i : grid1.Coords) (arg1 : Memref sig .tc .vmem S12800x10 .f32) (harg1 : arg1.IsWhole)
    (arg2 : Memref sig .tc .vmem S1x12800 .i32) (harg2 : arg2.IsWhole) (arg3 : Memref sig .tc .vmem S10x1 .f32) (harg3 : arg3.IsWhole)
    (arg4 : Memref sig .tc .vmem S64x1 .f32) (harg4 : arg4.IsWhole) (arg5 : Memref sig .tc .vmem S64x10 .f32) (harg5 : arg5.IsWhole)
    (arg6 : Memref sig .tc .vmem S64x1 .f32) (harg6 : arg6.IsWhole) (hI : ¬condI i) (hF : ¬condF i)
    (x0 : Vec F S12800x10 .f32) (x1 : Vec F S1x12800 .i32) (s0 : Vec F S64x10 .f32) (s1 : Vec F S64x1 .f32) (K : PUnit → sProp 𝕄) :
    iprop(owns (c : Thread nD τ) arg1 fullShare x0 ∗ owns (c : Thread nD τ) arg2 fullShare x1
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg5 fullShare (k1_pay4 x0 x1 s0) ∗ owns (c : Thread nD τ) arg6 fullShare (k1_pay5 x1 s1)) -∗ K ⟨⟩))
      ⊢ wp frame (wpE (defs₀ (F := F)) Variants.none c none) E (cc1__pool_kernel i arg1 harg1 arg2 harg2 arg3 harg3 arg4 harg4 arg5 harg5 arg6 harg6) K := by
  simp only [cc1__pool_kernel_eq_skeleton]; unfold cc1__pool_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hI | exact hF)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    sl_unfold_words
    rw [View.read_writes_eq_canon _ _ _ (fun y => ⟨_, List.mem_cons_self .., View.mem_set_unit_zero hz2 inb_S64x10_S64x10_0_0 y⟩), View.canon_cons_unit_zero hz2]
    simp only [View.readAt_eq_ld, View.ld_unit_zero (S := S12800x10) hz2, View.ld_unit_zero (S := S1x12800) hz2, View.ld_unit_zero (S := S64x10) hz2, View.ld_unit_zero (S := S64x1) hz2, View.ld_unit_zero (S := S10x1) hz2, View.readCov_unit_zero (S := S64x10) _ hz2, View.readCov_unit_zero (S := S64x1) _ hz2]
  · iexists _; isplitr
    swap; · iexact H6
    ipureintro
    sl_unfold_words
    rw [View.read_writes_eq_canon _ _ _ (fun y => ⟨_, List.mem_cons_self .., View.mem_set_unit_zero hz2 inb_S64x1_S64x1_0_0 y⟩), View.canon_cons_unit_zero hz2]
    simp only [View.readAt_eq_ld, View.ld_unit_zero (S := S12800x10) hz2, View.ld_unit_zero (S := S1x12800) hz2, View.ld_unit_zero (S := S64x10) hz2, View.ld_unit_zero (S := S64x1) hz2, View.ld_unit_zero (S := S10x1) hz2, View.readCov_unit_zero (S := S64x10) _ hz2, View.readCov_unit_zero (S := S64x1) _ hz2]

set_option maxHeartbeats 2000000 in
/-- The last point: the accumulators take their last step, and the output block receives the logistic function of
    the mean rows times the projection column. -/
theorem sound_last (c : Dev nD) (E : Set ℕ) (i : grid1.Coords) (arg1 : Memref sig .tc .vmem S12800x10 .f32) (harg1 : arg1.IsWhole)
    (arg2 : Memref sig .tc .vmem S1x12800 .i32) (harg2 : arg2.IsWhole) (arg3 : Memref sig .tc .vmem S10x1 .f32) (harg3 : arg3.IsWhole)
    (arg4 : Memref sig .tc .vmem S64x1 .f32) (harg4 : arg4.IsWhole) (arg5 : Memref sig .tc .vmem S64x10 .f32) (harg5 : arg5.IsWhole)
    (arg6 : Memref sig .tc .vmem S64x1 .f32) (harg6 : arg6.IsWhole) (hI : ¬condI i) (hF : condF i)
    (x0 : Vec F S12800x10 .f32) (x1 : Vec F S1x12800 .i32) (x2 : Vec F S10x1 .f32) (s0 : Vec F S64x10 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k1_pay6 (k1_pay4 x0 x1 s0) (k1_pay5 x1 s1) x2)
            ∗ owns (c : Thread nD τ) arg5 fullShare (k1_pay4 x0 x1 s0) ∗ owns (c : Thread nD τ) arg6 fullShare (k1_pay5 x1 s1)) -∗ K ⟨⟩))
      ⊢ wp frame (wpE (defs₀ (F := F)) Variants.none c none) E (cc1__pool_kernel i arg1 harg1 arg2 harg2 arg3 harg3 arg4 harg4 arg5 harg5 arg6 harg6) K := by
  simp only [cc1__pool_kernel_eq_skeleton]; unfold cc1__pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0; subst hf1; subst hf2; subst hf5; subst hf6
  sl_exec (disch := first | exact hI | exact hF)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_words
    rw [View.read_writes_eq_canon _ _ _ (fun y => ⟨_, List.mem_cons_self .., View.mem_set_unit_zero hz2 inb_S64x1_S64x1_0_0 y⟩), View.canon_cons_unit_zero hz2]
    simp only [View.readAt_eq_ld, View.ld_unit_zero (S := S12800x10) hz2, View.ld_unit_zero (S := S1x12800) hz2, View.ld_unit_zero (S := S64x10) hz2, View.ld_unit_zero (S := S64x1) hz2, View.ld_unit_zero (S := S10x1) hz2, View.readCov_unit_zero (S := S64x10) _ hz2, View.readCov_unit_zero (S := S64x1) _ hz2]
  isplitl [H5]
  · iexists _; isplitr
    swap; · iexact H5
    ipureintro
    sl_unfold_words
    rw [View.read_writes_eq_canon _ _ _ (fun y => ⟨_, List.mem_cons_self .., View.mem_set_unit_zero hz2 inb_S64x10_S64x10_0_0 y⟩), View.canon_cons_unit_zero hz2]
    simp only [View.readAt_eq_ld, View.ld_unit_zero (S := S12800x10) hz2, View.ld_unit_zero (S := S1x12800) hz2, View.ld_unit_zero (S := S64x10) hz2, View.ld_unit_zero (S := S64x1) hz2, View.ld_unit_zero (S := S10x1) hz2, View.readCov_unit_zero (S := S64x10) _ hz2, View.readCov_unit_zero (S := S64x1) _ hz2]
  · iexists _; isplitr
    swap; · iexact H6
    ipureintro
    sl_unfold_words
    rw [View.read_writes_eq_canon _ _ _ (fun y => ⟨_, List.mem_cons_self .., View.mem_set_unit_zero hz2 inb_S64x1_S64x1_0_0 y⟩), View.canon_cons_unit_zero hz2]
    simp only [View.readAt_eq_ld, View.ld_unit_zero (S := S12800x10) hz2, View.ld_unit_zero (S := S1x12800) hz2, View.ld_unit_zero (S := S64x10) hz2, View.ld_unit_zero (S := S64x1) hz2, View.ld_unit_zero (S := S10x1) hz2, View.readCov_unit_zero (S := S64x10) _ hz2, View.readCov_unit_zero (S := S64x1) _ hz2]

/-! ## What the accumulators hold after each point -/

/-- The aggregate block and the graph-id block of point `n` (past the grid, point 0's: never consulted). -/
def blkH (c : Dev nD) (n : ℕ) : Vec F S12800x10 .f32 :=
  if h : n < cfg1.N then iblk V c 0 ⟨n, h⟩ else iblk V c 0 t1_0
def blkG (c : Dev nD) (n : ℕ) : Vec F S1x12800 .i32 :=
  if h : n < cfg1.N then iblk V c 1 ⟨n, h⟩ else iblk V c 1 t1_0

theorem blkH_val (c : Dev nD) (t : Fin cfg1.N) : blkH V c t.val = iblk V c 0 t := by
  unfold blkH; rw [dif_pos t.isLt]
theorem blkG_val (c : Dev nD) (t : Fin cfg1.N) : blkG V c t.val = iblk V c 1 t := by
  unfold blkG; rw [dif_pos t.isLt]

/-- The sums accumulator after point `n`: one step from the reset value at the first point, one step from the
    previous point's afterwards. -/
def accS (c : Dev nD) : ℕ → Vec F S64x10 .f32
  | 0 => k1_pay4 (blkH V c 0) (blkG V c 0) k1_pay1
  | n + 1 => k1_pay4 (blkH V c (n + 1)) (blkG V c (n + 1)) (accS c n)
/-- The counts accumulator after point `n`. -/
def accK (c : Dev nD) : ℕ → Vec F S64x1 .f32
  | 0 => k1_pay5 (blkG V c 0) k1_pay2
  | n + 1 => k1_pay5 (blkG V c (n + 1)) (accK c n)

theorem accS_first (c : Dev nD) (t : Fin cfg1.N) (hz : t.val = 0) :
    accS V c t.val = k1_pay4 (iblk V c 0 t) (iblk V c 1 t) k1_pay1 := by
  rw [← blkH_val, ← blkG_val, hz]; rfl
theorem accK_first (c : Dev nD) (t : Fin cfg1.N) (hz : t.val = 0) :
    accK V c t.val = k1_pay5 (iblk V c 1 t) k1_pay2 := by
  rw [← blkG_val, hz]; rfl
theorem accS_pos (c : Dev nD) (t : Fin cfg1.N) (hz : t.val ≠ 0) :
    accS V c t.val = k1_pay4 (iblk V c 0 t) (iblk V c 1 t) (accS V c (t.val - 1)) := by
  rw [← blkH_val, ← blkG_val]
  obtain ⟨n, hn⟩ := Nat.exists_eq_succ_of_ne_zero hz
  rw [hn]; rfl
theorem accK_pos (c : Dev nD) (t : Fin cfg1.N) (hz : t.val ≠ 0) :
    accK V c t.val = k1_pay5 (iblk V c 1 t) (accK V c (t.val - 1)) := by
  rw [← blkG_val]
  obtain ⟨n, hn⟩ := Nat.exists_eq_succ_of_ne_zero hz
  rw [hn]; rfl

/-- What the body stores in the output block at a point where it stores at all (the last). -/
def outAt (c : Dev nD) (t : Fin cfg1.N) : Vec F S64x1 .f32 :=
  k1_pay6 (accS V c t.val) (accK V c t.val) (iblk V c 2 t)

/-! ## The invariant -/

/-- The class's invariant with the scoped buffers that are no staging buffer of this launch spelt out: the first
    launch's five staging buffers at anything, the two accumulators owned at some contents, the generator register. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scS fullShare d) ∗ (∃ d, owns (c : Thread nD τ) scK fullShare d)) ∗ (∃ r, prngReg c r)) := by
  unfold Pipeline.ΦA; rw [scopedRest1_eq]; simp only [scS, scK, owns_whole]; try rfl

/-- Before point `n`: before the first, the class's invariant (the accumulators at anything); afterwards the same
    with each accumulator at what the point before left in it. -/
def PhiS (c : Dev nD) : ℕ → sProp 𝕄
  | 0 => Pipeline.ΦA spec1 c
  | n + 1 => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scS fullShare (accS V c n) ∗ owns (c : Thread nD τ) scK fullShare (accK V c n)) ∗ (∃ r, prngReg c r))

theorem PhiS_pos (c : Dev nD) (n : ℕ) (hz : n ≠ 0) :
    PhiS V c n = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scS fullShare (accS V c (n - 1)) ∗ owns (c : Thread nD τ) scK fullShare (accK V c (n - 1))) ∗ (∃ r, prngReg c r)) := by
  cases n with
  | zero => exact absurd rfl hz
  | succ n => rfl

/-! ## The launch's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) from rfl, show (dat V c).Φ t.castSucc = PhiS V c t.val from rfl]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  rw [show PhiS V c (t.val + 1) = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scS fullShare (accS V c t.val) ∗ owns (c : Thread nD τ) scK fullShare (accK V c t.val)) ∗ (∃ r, prngReg c r)) from rfl]
  have hN : t.val < 8 := lt_of_lt_of_eq t.isLt (show cfg1.N = 8 from N_1)
  by_cases h0 : t.val = 0
  · have hI : condI (grid1.coords t) := (hcondI t).mpr h0
    have hF : ¬condF (grid1.coords t) := fun h => by have := (hcondF t).mp h; omega
    rw [Dat.leavesExact_idle (dat V c) 3 t (idle_3 t hF) (noFlush_3 t hF)]
    rw [accS_first V c t h0, accK_first V c t h0, h0]
    rw [show PhiS V c 0 = Pipeline.ΦA spec1 c from rfl, PhiA_eq]
    iintro ⟨⟨⟨Ho1, Ho2, Ho3, Ho4, Ho5, HS, HK⟩, Hg⟩, Ho, ⟨%d0, H0⟩, ⟨%d1, H1⟩, ⟨%d2, H2⟩, ⟨%d3, H3⟩⟩
    iapply (sound_first c Set.univ _ _ _ _ _ _ _ _ _ _ _ _ _ hI hF (iblk V c 0 t) (iblk V c 1 t) _)
    isplitl [H0]; · iexact H0
    isplitl [H1]; · iexact H1
    isplitl [HS]; · iexact HS
    isplitl [HK]; · iexact HK
    iintro ⟨H0, H1, HS, HK⟩
    isplitl [Ho1 Ho2 Ho3 Ho4 Ho5 HS HK Hg]
    · isplitr [Hg]
      · isplitl [Ho1]; · iexact Ho1
        isplitl [Ho2]; · iexact Ho2
        isplitl [Ho3]; · iexact Ho3
        isplitl [Ho4]; · iexact Ho4
        isplitl [Ho5]; · iexact Ho5
        isplitl [HS]; · iexact HS
        iexact HK
      iexact Hg
    isplitl [Ho]; · iexact Ho
    isplitl [H0]; · iexact H0
    isplitl [H1]; · iexact H1
    isplitl [H2]; · iexact H2
    iexists _; iexact H3
  · rw [PhiS_pos V c t.val h0, accS_pos V c t h0, accK_pos V c t h0]
    have hI : ¬condI (grid1.coords t) := fun h => h0 ((hcondI t).mp h)
    by_cases h7 : t.val = 7
    · have hF : condF (grid1.coords t) := (hcondF t).mpr h7
      rw [show (dat V c).leavesExact 3 t = owns (c : Thread nD τ) (st1_3 t) fullShare ((dat V c).after 3 t) from by
        unfold Dat.leavesExact; rw [live_3 t hF], after_3]
      unfold outAt
      rw [accS_pos V c t h0, accK_pos V c t h0]
      iintro ⟨⟨⟨Ho1, Ho2, Ho3, Ho4, Ho5, HS, HK⟩, Hg⟩, Ho, ⟨%d0, H0⟩, ⟨%d1, H1⟩, ⟨%d2, H2⟩, ⟨%d3, H3⟩⟩
      iapply (sound_last c Set.univ _ _ _ _ _ _ _ _ _ _ _ _ _ hI hF (iblk V c 0 t) (iblk V c 1 t) (iblk V c 2 t) (accS V c (t.val - 1)) (accK V c (t.val - 1)) _)
      isplitl [H0]; · iexact H0
      isplitl [H1]; · iexact H1
      isplitl [H2]; · iexact H2
      isplitl [H3]; · iexists _; iexact H3
      isplitl [HS]; · iexact HS
      isplitl [HK]; · iexact HK
      iintro ⟨H0, H1, H2, H3, HS, HK⟩
      isplitl [Ho1 Ho2 Ho3 Ho4 Ho5 HS HK Hg]
      · isplitr [Hg]
        · isplitl [Ho1]; · iexact Ho1
          isplitl [Ho2]; · iexact Ho2
          isplitl [Ho3]; · iexact Ho3
          isplitl [Ho4]; · iexact Ho4
          isplitl [Ho5]; · iexact Ho5
          isplitl [HS]; · iexact HS
          iexact HK
        iexact Hg
      isplitl [Ho]; · iexact Ho
      isplitl [H0]; · iexact H0
      isplitl [H1]; · iexact H1
      isplitl [H2]; · iexact H2
      iexact H3
    · have hF : ¬condF (grid1.coords t) := fun h => h7 ((hcondF t).mp h)
      rw [Dat.leavesExact_idle (dat V c) 3 t (idle_3 t hF) (noFlush_3 t hF)]
      iintro ⟨⟨⟨Ho1, Ho2, Ho3, Ho4, Ho5, HS, HK⟩, Hg⟩, Ho, ⟨%d0, H0⟩, ⟨%d1, H1⟩, ⟨%d2, H2⟩, ⟨%d3, H3⟩⟩
      iapply (sound_mid c Set.univ _ _ _ _ _ _ _ _ _ _ _ _ _ hI hF (iblk V c 0 t) (iblk V c 1 t) (accS V c (t.val - 1)) (accK V c (t.val - 1)) _)
      isplitl [H0]; · iexact H0
      isplitl [H1]; · iexact H1
      isplitl [HS]; · iexact HS
      isplitl [HK]; · iexact HK
      iintro ⟨H0, H1, HS, HK⟩
      isplitl [Ho1 Ho2 Ho3 Ho4 Ho5 HS HK Hg]
      · isplitr [Hg]
        · isplitl [Ho1]; · iexact Ho1
          isplitl [Ho2]; · iexact Ho2
          isplitl [Ho3]; · iexact Ho3
          isplitl [Ho4]; · iexact Ho4
          isplitl [Ho5]; · iexact Ho5
          isplitl [HS]; · iexact HS
          iexact HK
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 from rfl]
  exact Idealize.SL.BI.Entails.refl _

/-- After the last point the invariant gives the class's back: the accumulators' named contents are forgotten. -/
theorem hout (c : Dev nD) : (dat V c).Φ (Fin.last cfg1.N) ⊢ Pipeline.ΦA spec1 c := by
  rw [show (dat V c).Φ (Fin.last cfg1.N) = PhiS V c (7 + 1) from rfl, PhiA_eq]
  rw [show PhiS V c (7 + 1) = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scS fullShare (accS V c 7) ∗ owns (c : Thread nD τ) scK fullShare (accK V c 7)) ∗ (∃ r, prngReg c r)) from rfl]
  iintro ⟨⟨Ho1, Ho2, Ho3, Ho4, Ho5, HS, HK⟩, Hg⟩
  isplitr [Hg]
  · isplitl [Ho1]; · iexact Ho1
    isplitl [Ho2]; · iexact Ho2
    isplitl [Ho3]; · iexact Ho3
    isplitl [Ho4]; · iexact Ho4
    isplitl [Ho5]; · iexact Ho5
    isplitl [HS]; · iexists _; iexact HS
    iexists _; iexact HK
  iexact Hg

end Cert.KernelIdeal.Pl

end
-- ==== Proof.Run.lean ====
/-
  The whole program as a run: the first launch, seven stretches of host operations, the second launch.

  Between two items core `c` holds every unscoped buffer at a named valuation: the launch memory; then the first
  launch's product in its result buffer; then each host stretch applied; then the second launch's result in the
  program's result buffer. Each launch is a region entered from the thread state before it and left at the one
  after it: its windows' arrays are split out of the unscoped buffers, the pipeline runs under the launch's proof
  data, and the arrays are put back at what the pipeline's write-backs leave. The run ends with every argument as
  launched and the result buffer at what the second launch's last write-back leaves.
-/
import proofs.«431282_j74801150427782_3_alg».proof.Proof.MmBody
import proofs.«431282_j74801150427782_3_alg».proof.Proof.PoolBody
import proofs.«431282_j74801150427782_3_alg».proof.Proof.Gen.KernelIdeal.Regions

set_option maxRecDepth 16384

noncomputable section

namespace Cert.KernelIdeal.Rn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The valuations between the items -/

/-- What the first launch finds: the launch memory. -/
abbrev Vin0 : (c : Dev nD) → (b : Ref sig .tc) → Buf (Elt F) ((c : Thread nD τ).loc b) := fun c b => Gen.V0 m c b

/-- What the first launch leaves in its result buffer: its write-backs folded over the ten points. -/
def mmOut (c : Dev nD) : Buf (Elt F) ((c : Thread nD τ).loc main_v0) := (Mm.dat (Vin0 m) c).arrAt 2 cfg0.N

/-- The regions' results with only the first launch's named. -/
def outs1 : Gen.Outs (F := F) := fun _ r c => if h : r = main_v0 then h ▸ mmOut m c else Gen.V0 m c r

/-- What the second launch finds: the launch memory, the first launch's product, the host stretches applied. -/
abbrev Vin1 : (c : Dev nD) → (b : Ref sig .tc) → Buf (Elt F) ((c : Thread nD τ).loc b) := fun c b => Gen.V8 m (outs1 m) c b

/-- What the second launch leaves in the program's result buffer. -/
def plOut (c : Dev nD) : Buf (Elt F) ((c : Thread nD τ).loc main_v26) := (Pl.dat (Vin1 m) c).arrAt 3 cfg1.N

/-- The regions' results, both named. -/
def outs : Gen.Outs (F := F) := fun j r c => match j with
  | 9 => if h : r = main_v26 then h ▸ plOut m c else Gen.V0 m c r
  | _ => outs1 m j r c

theorem outs1_v0 (c : Dev nD) : outs1 m 1 main_v0 c = mmOut m c := by
  unfold outs1; rw [dif_pos rfl]
theorem outs_v0 (c : Dev nD) : outs m 1 main_v0 c = mmOut m c := outs1_v0 m c
theorem outs_v26 (c : Dev nD) : outs m 9 main_v26 c = plOut m c := by
  show (if h : main_v26 = main_v26 then h ▸ plOut m c else Gen.V0 m c main_v26) = _
  rw [dif_pos rfl]
/-- The valuations before the second launch read only the first launch's result. -/
theorem V8_outs (c : Dev nD) : Gen.V8 m (outs m) c = Gen.V8 m (outs1 m) c := rfl

/-! ## The proof data family and the thread state -/

/-- Both launches' proof data, each at its entry contents: a literal match on the launch's number. -/
def pdats : (p : Fin 2) → (c : Dev nD) → Dat τ (Elt F) Unit ℕ (UR sig nD τ) ℕ (Pipeline.pin (pcfgs (F := F)) Gen.adm p) c
  | ⟨0, _⟩ => fun c => Mm.dat (Vin0 m) c
  | ⟨1, _⟩ => fun c => Pl.dat (Vin1 m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The first launch as a region -/

theorem hF0 (c : Dev nD) (w : Fin cfg0.W) : (pdats m 0 c).arrAt w cfg0.N = Gen.V1 m (outs m) c (Pipeline.arrRef spec0 w) :=
  match w with
  | ⟨0, _⟩ => ((Mm.dat (Vin0 m) c).arrAt_in 0 rfl _).trans ((Mm.A_eq (Vin0 m) c 0).trans (Gen.V1_of m (outs m) c main_arg0 (by decide)).symm)
  | ⟨1, _⟩ => ((Mm.dat (Vin0 m) c).arrAt_in 1 rfl _).trans ((Mm.A_eq (Vin0 m) c 1).trans (Gen.V1_of m (outs m) c main_arg1 (by decide)).symm)
  | ⟨2, _⟩ => by
    show mmOut m c = Function.update (Gen.V0 m c) main_v0 (outs m 1 main_v0 c) main_v0
    rw [Function.update_self, outs_v0]

theorem hrest0 (c : Dev nD) : ∀ b, b ∉ Finset.univ.image (Pipeline.arrRef spec0) → Gen.V1 m (outs m) c b = Gen.V0 m c b :=
  fun b hb => Gen.V1_of m (outs m) c b (by
    intro h; rw [List.mem_singleton] at h; subst h
    exact hb (Finset.mem_image.mpr ⟨2, Finset.mem_univ _, rfl⟩))

set_option backward.isDefEq.respectTransparency.types false in
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mm.body_obligation (Vin0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second launch as a region -/

theorem hF1 (c : Dev nD) (w : Fin cfg1.W) : (pdats m 1 c).arrAt w cfg1.N = Gen.V9 m (outs m) c (Pipeline.arrRef spec1 w) :=
  match w with
  | ⟨0, _⟩ => ((Pl.dat (Vin1 m) c).arrAt_in 0 rfl _).trans ((Pl.A_eq (Vin1 m) c 0).trans (Gen.V9_of m (outs m) c main_v23 (by decide)).symm)
  | ⟨1, _⟩ => ((Pl.dat (Vin1 m) c).arrAt_in 1 rfl _).trans ((Pl.A_eq (Vin1 m) c 1).trans (Gen.V9_of m (outs m) c main_v25 (by decide)).symm)
  | ⟨2, _⟩ => ((Pl.dat (Vin1 m) c).arrAt_in 2 rfl _).trans ((Pl.A_eq (Vin1 m) c 2).trans (Gen.V9_of m (outs m) c main_v22 (by decide)).symm)
  | ⟨3, _⟩ => by
    show plOut m c = Function.update (Gen.V8 m (outs m) c) main_v26 (outs m 9 main_v26 c) main_v26
    rw [Function.update_self, outs_v26]

theorem hrest1 (c : Dev nD) : ∀ b, b ∉ Finset.univ.image (Pipeline.arrRef spec1) → Gen.V9 m (outs m) c b = Vin1 m c b :=
  fun b hb => Gen.V9_of m (outs m) c b (by
    intro h; rw [List.mem_singleton] at h; subst h
    exact hb (Finset.mem_image.mpr ⟨3, Finset.mem_univ _, rfl⟩))

set_option backward.isDefEq.respectTransparency.types false in
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pl.body_obligation (Vin1 m) c).loose
  hwaits := Pipeline.hwaits_of_owed_zero _ _ _ _ L lv 1 fun _ _ => rfl
  pre c := iprop(StableHlo.held (c : Thread nD τ) (Pipeline.ucRefs τ sig) (Gen.V8 m (outs m) c) ∗ R c)
  post c := iprop(StableHlo.held (c : Thread nD τ) (Pipeline.ucRefs τ sig) (Gen.V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V8_outs]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (Pl.hin (Vin1 m) c)
    unfold Pipeline.ΦA
    iintro ⟨Hp, -, Hr⟩
    isplitl [Hr]; · iexact Hr
    iexact Hp
  hout c := by
    rw [Pipeline.ownSems0_none]
    refine (Pl.hout (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (fun b => Gen.V9 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates, and every final
    memory holds the result buffer at what the second launch leaves (`plOut`) and each argument as launched. -/
theorem run : θ_run defs (onTc (τ := τ) (main (F := F))) ⟨m, fun _ => 0, ρ⟩ (fun r => ∀ c : Dev nD,
      r.2.mem ((c.tc : Thread nD τ).loc main_v26) = plOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ 𝒱₀ L lv m ρ main
    (Gen.segs m (outs m) 𝒱₀ L lv (fun _ => R) () (pdats m) (reg0 m) (reg1 m))
    (fun c Q => by
      rewrite [main_chain c, Seg.run_eq_chain,
        show (Gen.segs m (outs m) 𝒱₀ L lv (fun _ => R) () (pdats m) (reg0 m) (reg1 m) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V9 m (outs m) c) ∗ ∃ r, prngReg c r))
    (hch := fun c => ⟨.rfl, .rfl, .rfl, .rfl, .rfl, .rfl, .rfl, .rfl, .rfl,
      (show iprop(StableHlo.held (c : Thread nD τ) (Pipeline.ucRefs τ sig) (Gen.V9 m (outs m) c) ∗ R c)
          ⊢ (iprop((StableHlo.held (c : Thread nD τ) (Pipeline.ucRefs τ sig) (Gen.V9 m (outs m) c) ∗ ∃ r, prngReg c r)
              ∗ ∃ W, owes (c : Thread nD τ) (0 : CellTallies nD τ sig Unit) W) : sProp 𝕄) from by
        iintro ⟨Hh, Hr, Ho⟩
        isplitl [Hh Hr]
        · isplitl [Hh]; · iexact Hh
          iexact Hr
        iexact Ho)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V9 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V9 m (outs m) c) s')
      isplitl [Hh] <;> iassumption)
    (hQ := fun s h c =>
      ⟨(h c (Proc.devRef .tc main_v26) (Finset.mem_filter.mpr ⟨StableHlo.devRef_mem_tcRefs main_v26, by decide⟩)).trans
          ((show Gen.V9 m (outs m) c main_v26 = outs m 9 main_v26 c from Function.update_self ..).trans (outs_v26 m c)),
        (h c (Proc.devRef .tc main_arg0) (Finset.mem_filter.mpr ⟨StableHlo.devRef_mem_tcRefs main_arg0, by decide⟩)).trans (Gen.V9_main_arg0 m (outs m) c),
        (h c (Proc.devRef .tc main_arg1) (Finset.mem_filter.mpr ⟨StableHlo.devRef_mem_tcRefs main_arg1, by decide⟩)).trans (Gen.V9_main_arg1 m (outs m) c),
        (h c (Proc.devRef .tc main_arg2) (Finset.mem_filter.mpr ⟨StableHlo.devRef_mem_tcRefs main_arg2, by decide⟩)).trans (Gen.V9_main_arg2 m (outs m) c),
        (h c (Proc.devRef .tc main_arg3) (Finset.mem_filter.mpr ⟨StableHlo.devRef_mem_tcRefs main_arg3, by decide⟩)).trans (Gen.V9_main_arg3 m (outs m) c),
        (h c (Proc.devRef .tc main_arg4) (Finset.mem_filter.mpr ⟨StableHlo.devRef_mem_tcRefs main_arg4, by decide⟩)).trans (Gen.V9_main_arg4 m (outs m) c),
        (h c (Proc.devRef .tc main_arg5) (Finset.mem_filter.mpr ⟨StableHlo.devRef_mem_tcRefs main_arg5, by decide⟩)).trans (Gen.V9_main_arg5 m (outs m) c),
        (h c (Proc.devRef .tc main_arg6) (Finset.mem_filter.mpr ⟨StableHlo.devRef_mem_tcRefs main_arg6, by decide⟩)).trans (Gen.V9_main_arg6 m (outs m) c)⟩)

end Cert.KernelIdeal.Rn

end
-- ==== Proof.HostValue.lean ====
/-
  What the second launch finds in its three arrays, as functions of the program's arguments and of the first
  launch's product.

  Between the launches the host gathers rows of the product by the source ids, scatter-adds them by the destination
  ids, clamps at zero, gathers and scatter-adds again: the second aggregate, kept here as ONE function `aggOf` of
  the product and the two id arrays. The second launch's aggregate operand is that array padded with 2400 zero rows;
  its id row is the graph ids padded with 2400 copies of 64 and laid out as one row; its projection column is the
  product `W2 · W3`.
-/
import proofs.«431282_j74801150427782_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal
import Idealize.ShloMosaic.PureOps.Ideal.Laws

set_option maxRecDepth 16384

noncomputable section

namespace Cert.KernelIdeal.Hv

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (outs : Gen.Outs (F := Ideal))

/-! ## The arrays at their literal types -/

abbrev w2 (c : Dev nD) : Vec Ideal S10x10 .f32 := m ((c.tc : Thread nD τ).loc main_arg2)
abbrev w3 (c : Dev nD) : Vec Ideal S10x1 .f32 := m ((c.tc : Thread nD τ).loc main_arg3)
abbrev srcA (c : Dev nD) : Vec Ideal S3200000 .i32 := m ((c.tc : Thread nD τ).loc main_arg4)
abbrev dstA (c : Dev nD) : Vec Ideal S3200000 .i32 := m ((c.tc : Thread nD τ).loc main_arg5)
abbrev gidA (c : Dev nD) : Vec Ideal S100000 .i32 := m ((c.tc : Thread nD τ).loc main_arg6)
/-- The first launch's product, as the valuations before the second launch read it. -/
abbrev prodIn (c : Dev nD) : Vec Ideal S100000x10 .f32 := outs 1 main_v0 c
abbrev agg (c : Dev nD) : Vec Ideal S100000x10 .f32 := Gen.V8 m outs c main_v21
abbrev aggP (c : Dev nD) : Vec Ideal S102400x10 .f32 := Gen.V8 m outs c main_v23
abbrev gidP (c : Dev nD) : Vec Ideal S1x102400 .i32 := Gen.V8 m outs c main_v25
abbrev proj (c : Dev nD) : Vec Ideal S10x1 .f32 := Gen.V8 m outs c main_v22

/-- The two neighbourhood sums as one function of the node features `h` and the edge arrays: gather the source
    rows (a negative id wrapped once), add them up at the destination rows, clamp at zero, and once more. -/
def aggOf (h : Vec Ideal S100000x10 .f32) (src dst : Vec Ideal S3200000 .i32) : Vec Ideal S100000x10 .f32 :=
  Host.scatterAdd scatter_S100000x10_S3200000x1_S3200000x10_1_0_0_1 (broadcastInDim S100000x10 ![] bcast_S_S100000x10 (constant (F := Ideal) S_ .f32 0x00000000#32)) (broadcastInDim S3200000x1 ![0] bcast_S3200000_S3200000x1_0 dst)
    (Host.gather gather_S100000x10_S3200000x1_S3200000x10_1_0_n_n_0_1_110
      (maximumf
        (Host.scatterAdd scatter_S100000x10_S3200000x1_S3200000x10_1_0_0_1 (broadcastInDim S100000x10 ![] bcast_S_S100000x10 (constant (F := Ideal) S_ .f32 0x00000000#32)) (broadcastInDim S3200000x1 ![0] bcast_S3200000_S3200000x1_0 dst)
          (Host.gather gather_S100000x10_S3200000x1_S3200000x10_1_0_n_n_0_1_110 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))))
        (broadcastInDim S100000x10 ![] bcast_S_S100000x10 (constant (F := Ideal) S_ .f32 0x00000000#32)))
      (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)))

theorem ne_of (a b : Ref sig .tc) (h : a ≠ b) : (Proc.devRef .tc a : DevRef τ sig) ≠ Proc.devRef .tc b := StableHlo.devRef_ne_of_ne h

/-! ## The arguments pass through every item -/

theorem arg2_at (c : Dev nD) : Gen.V3 m outs c main_arg2 = w2 m c := ((Gen.V3_of m outs c main_arg2 (by decide)).trans <| (Gen.V2_of m outs c main_arg2 (by decide)).trans <| (Gen.V1_of m outs c main_arg2 (by decide))).trans rfl
theorem arg3_at (c : Dev nD) : Gen.V3 m outs c main_arg3 = w3 m c := ((Gen.V3_of m outs c main_arg3 (by decide)).trans <| (Gen.V2_of m outs c main_arg3 (by decide)).trans <| (Gen.V1_of m outs c main_arg3 (by decide))).trans rfl
theorem arg4_at1 (c : Dev nD) : Gen.V1 m outs c main_arg4 = srcA m c := ((Gen.V1_of m outs c main_arg4 (by decide))).trans rfl
theorem arg5_at1 (c : Dev nD) : Gen.V1 m outs c main_arg5 = dstA m c := ((Gen.V1_of m outs c main_arg5 (by decide))).trans rfl
theorem arg4_at3 (c : Dev nD) : Gen.V3 m outs c main_arg4 = srcA m c := ((Gen.V3_of m outs c main_arg4 (by decide)).trans <| (Gen.V2_of m outs c main_arg4 (by decide)).trans <| (Gen.V1_of m outs c main_arg4 (by decide))).trans rfl
theorem arg5_at3 (c : Dev nD) : Gen.V3 m outs c main_arg5 = dstA m c := ((Gen.V3_of m outs c main_arg5 (by decide)).trans <| (Gen.V2_of m outs c main_arg5 (by decide)).trans <| (Gen.V1_of m outs c main_arg5 (by decide))).trans rfl
theorem arg6_at6 (c : Dev nD) : Gen.V6 m outs c main_arg6 = gidA m c := ((Gen.V6_of m outs c main_arg6 (by decide)).trans <| (Gen.V5_of m outs c main_arg6 (by decide)).trans <| (Gen.V4_of m outs c main_arg6 (by decide)).trans <| (Gen.V3_of m outs c main_arg6 (by decide)).trans <| (Gen.V2_of m outs c main_arg6 (by decide)).trans <| (Gen.V1_of m outs c main_arg6 (by decide))).trans rfl
theorem v0_at1 (c : Dev nD) : Gen.V1 m outs c main_v0 = prodIn outs c := by
  show Function.update (Gen.V0 m c) (Proc.devRef .tc main_v0) (outs 1 main_v0 c) (Proc.devRef .tc main_v0) = _
  rw [Function.update_self]

/-! ## One stretch at a time, over an arbitrary valuation `W` before it -/

/-- The first neighbourhood sum, before the clamp. -/
def agg1 (h : Vec Ideal S100000x10 .f32) (src dst : Vec Ideal S3200000 .i32) : Vec Ideal S100000x10 .f32 :=
  Host.scatterAdd scatter_S100000x10_S3200000x1_S3200000x10_1_0_0_1 (broadcastInDim S100000x10 ![] bcast_S_S100000x10 (constant (F := Ideal) S_ .f32 0x00000000#32)) (broadcastInDim S3200000x1 ![0] bcast_S3200000_S3200000x1_0 dst)
    (Host.gather gather_S100000x10_S3200000x1_S3200000x10_1_0_n_n_0_1_110 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)))

theorem aggOf_eq (h : Vec Ideal S100000x10 .f32) (src dst : Vec Ideal S3200000 .i32) :
    aggOf h src dst = agg1 (maximumf (agg1 h src dst) (broadcastInDim S100000x10 ![] bcast_S_S100000x10 (constant (F := Ideal) S_ .f32 0x00000000#32))) src dst := rfl

variable (W : Valuation τ sig (Elt Ideal))

set_option maxHeartbeats 1000000 in
theorem st1_v10 : StableHlo.after hostOps1 W (Proc.devRef .tc main_v10)
    = agg1 (W (Proc.devRef .tc main_v0)) (W (Proc.devRef .tc main_arg4)) (W (Proc.devRef .tc main_arg5)) := by
  dsimp only [hostOps1]
  after_results
  rfl

theorem st2_v11 : StableHlo.after hostOps1_1 W (Proc.devRef .tc main_v11)
    = maximumf (F := Ideal) (W (Proc.devRef .tc main_v10)) (broadcastInDim S100000x10 ![] bcast_S_S100000x10 (constant (F := Ideal) S_ .f32 0x00000000#32)) := by
  dsimp only [hostOps1_1]
  after_results
  rfl

set_option maxHeartbeats 1000000 in
theorem st3_v21 : StableHlo.after hostOps1_2 W (Proc.devRef .tc main_v21)
    = agg1 (W (Proc.devRef .tc main_v11)) (W (Proc.devRef .tc main_arg4)) (W (Proc.devRef .tc main_arg5)) := by
  dsimp only [hostOps1_2]
  after_results
  rfl

set_option maxHeartbeats 1000000 in
theorem st3_v22 : StableHlo.after hostOps1_2 W (Proc.devRef .tc main_v22)
    = Host.dotGeneral (F := Ideal) (φ₁ := .f32) (φ₂ := .f32) dot_S10x10_S10x1_S10x1_1_0_0_1_n_n none (W (Proc.devRef .tc main_arg2)) (W (Proc.devRef .tc main_arg3)) := by
  dsimp only [hostOps1_2]
  after_results
  all_goals rfl

set_option maxHeartbeats 1000000 in
theorem st3_c4 : StableHlo.after hostOps1_2 W (Proc.devRef .tc main_c_4) = constantI S_ 32 0#32 := by
  dsimp only [hostOps1_2]
  after_results

theorem st4_v23 : StableHlo.after hostOps1_3 W (Proc.devRef .tc main_v23)
    = pad S102400x10 ![0, 0] ![2400, 0] ![0, 0] (W (Proc.devRef .tc main_v21)) (sitofp (F := Ideal) .f32 (W (Proc.devRef .tc main_c_4))) pads_S100000x10_S102400x10_024000_000 h_S_ := by
  dsimp only [hostOps1_3]
  after_results
  rfl

theorem st5_c5 : StableHlo.after hostOps1_4 W (Proc.devRef .tc main_c_5) = constantI S_ 32 64#32 := by
  dsimp only [hostOps1_4]
  after_results

theorem st6_v24 : StableHlo.after hostOps1_5 W (Proc.devRef .tc main_v24)
    = pad S102400 ![0] ![2400] ![0] (W (Proc.devRef .tc main_arg6)) (W (Proc.devRef .tc main_c_5)) pads_S100000_S102400_024000 h_S_ := by
  dsimp only [hostOps1_5]
  after_results
  rfl

theorem st7_v25 : StableHlo.after hostOps1_6 W (Proc.devRef .tc main_v25)
    = shapeCast S1x102400 (W (Proc.devRef .tc main_v24)) shapeCasts_S102400_S1x102400 := by
  dsimp only [hostOps1_6]
  after_results
  rfl

/-! ## The stages at this program's valuations -/

theorem v10_at2 (c : Dev nD) : Gen.V2 m outs c main_v10 = agg1 (Gen.V1 m outs c main_v0) (Gen.V1 m outs c main_arg4) (Gen.V1 m outs c main_arg5) :=
  st1_v10 (Gen.V1 m outs c)
theorem v11_at3 (c : Dev nD) : Gen.V3 m outs c main_v11 = maximumf (F := Ideal) (Gen.V2 m outs c main_v10) (broadcastInDim S100000x10 ![] bcast_S_S100000x10 (constant (F := Ideal) S_ .f32 0x00000000#32)) :=
  st2_v11 (Gen.V2 m outs c)
theorem v21_at4 (c : Dev nD) : Gen.V4 m outs c main_v21 = agg1 (Gen.V3 m outs c main_v11) (Gen.V3 m outs c main_arg4) (Gen.V3 m outs c main_arg5) :=
  st3_v21 (Gen.V3 m outs c)
theorem v22_at4 (c : Dev nD) : Gen.V4 m outs c main_v22
    = Host.dotGeneral (F := Ideal) (φ₁ := .f32) (φ₂ := .f32) dot_S10x10_S10x1_S10x1_1_0_0_1_n_n none (Gen.V3 m outs c main_arg2) (Gen.V3 m outs c main_arg3) :=
  st3_v22 (Gen.V3 m outs c)
theorem c4_at4 (c : Dev nD) : Gen.V4 m outs c main_c_4 = constantI S_ 32 0#32 := st3_c4 (Gen.V3 m outs c)
theorem v23_at5 (c : Dev nD) : Gen.V5 m outs c main_v23
    = pad S102400x10 ![0, 0] ![2400, 0] ![0, 0] (Gen.V4 m outs c main_v21) (sitofp (F := Ideal) .f32 (Gen.V4 m outs c main_c_4)) pads_S100000x10_S102400x10_024000_000 h_S_ :=
  st4_v23 (Gen.V4 m outs c)
theorem c5_at6 (c : Dev nD) : Gen.V6 m outs c main_c_5 = constantI S_ 32 64#32 := st5_c5 (Gen.V5 m outs c)
theorem v24_at7 (c : Dev nD) : Gen.V7 m outs c main_v24
    = pad S102400 ![0] ![2400] ![0] (Gen.V6 m outs c main_arg6) (Gen.V6 m outs c main_c_5) pads_S100000_S102400_024000 h_S_ :=
  st6_v24 (Gen.V6 m outs c)
theorem v25_at8 (c : Dev nD) : Gen.V8 m outs c main_v25 = shapeCast S1x102400 (Gen.V7 m outs c main_v24) shapeCasts_S102400_S1x102400 :=
  st7_v25 (Gen.V7 m outs c)

/-! ## What the second launch finds -/

theorem agg_eq (c : Dev nD) : agg m outs c = aggOf (prodIn outs c) (srcA m c) (dstA m c) := by
  show Gen.V8 m outs c main_v21 = _
  rw [((Gen.V8_of m outs c main_v21 (by decide)).trans <| (Gen.V7_of m outs c main_v21 (by decide)).trans <| (Gen.V6_of m outs c main_v21 (by decide)).trans <| (Gen.V5_of m outs c main_v21 (by decide))), v21_at4, v11_at3, v10_at2, arg4_at3, arg5_at3, arg4_at1, arg5_at1, v0_at1, aggOf_eq]

theorem proj_eq (c : Dev nD) : proj m outs c = Host.dotGeneral (F := Ideal) (φ₁ := .f32) (φ₂ := .f32) dot_S10x10_S10x1_S10x1_1_0_0_1_n_n none (w2 m c) (w3 m c) := by
  show Gen.V8 m outs c main_v22 = _
  rw [((Gen.V8_of m outs c main_v22 (by decide)).trans <| (Gen.V7_of m outs c main_v22 (by decide)).trans <| (Gen.V6_of m outs c main_v22 (by decide)).trans <| (Gen.V5_of m outs c main_v22 (by decide))), v22_at4, arg2_at, arg3_at]

theorem aggP_eq (c : Dev nD) : aggP m outs c
    = pad S102400x10 ![0, 0] ![2400, 0] ![0, 0] (agg m outs c) (sitofp (F := Ideal) .f32 (constantI S_ 32 0#32)) pads_S100000x10_S102400x10_024000_000 h_S_ := by
  show Gen.V8 m outs c main_v23 = pad S102400x10 ![0, 0] ![2400, 0] ![0, 0] (Gen.V8 m outs c main_v21) (sitofp (F := Ideal) .f32 (constantI S_ 32 0#32)) pads_S100000x10_S102400x10_024000_000 h_S_
  rw [((Gen.V8_of m outs c main_v23 (by decide)).trans <| (Gen.V7_of m outs c main_v23 (by decide)).trans <| (Gen.V6_of m outs c main_v23 (by decide))), v23_at5, c4_at4, ((Gen.V8_of m outs c main_v21 (by decide)).trans <| (Gen.V7_of m outs c main_v21 (by decide)).trans <| (Gen.V6_of m outs c main_v21 (by decide)).trans <| (Gen.V5_of m outs c main_v21 (by decide)))]

theorem gidP_eq (c : Dev nD) : gidP m outs c
    = shapeCast S1x102400 (pad S102400 ![0] ![2400] ![0] (gidA m c) (constantI S_ 32 64#32) pads_S100000_S102400_024000 h_S_) shapeCasts_S102400_S1x102400 := by
  show Gen.V8 m outs c main_v25 = _
  rw [v25_at8, v24_at7, c5_at6, arg6_at6]

end Cert.KernelIdeal.Hv

end
-- ==== Proof.PoolMath.lean ====
/-
  The second launch's arithmetic, entry by entry, over the extended reals.

  One point's step of the sums accumulator adds, to entry `(g, d)`, the sum over the point's 12800 rows `k` of
  (1 if row `k`'s graph-id word equals `g`, else 0) times aggregate entry `(k, d)`: the one-hot matrix is the
  comparison of an iota over the 64 graph rows with the broadcast id row, widened to a float, and the matrix product
  into a zero accumulator is the plain sum. The counts accumulator adds the one-hot matrix's row sums. The last
  point's store is the logistic function of, for graph `g`, the sum over the ten features `d` of (sums entry
  divided by the larger of the count and one) times projection entry `d`. The reset values are zero. A graph-id
  word equals the iota word of `g < 64` exactly when its signed value is `g`.
-/
import proofs.«431282_j74801150427782_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.PlM

open Idealize.ShloMosaic Idealize.ShloMosaic.ValueIdx
open Cert.KernelIdeal Cert.KernelIdeal.Gen

/-- Row `k` of a point's 12800 belongs to graph `g`: its graph-id word, read signed, is `g`. -/
def Hit (x1 : Vec Ideal S1x12800 .i32) (g : Fin 64) (k : Fin 12800) : Prop := (x1 (ix2 (0 : Fin 1) k)).toInt = (g.val : ℤ)

instance (x1 : Vec Ideal S1x12800 .i32) (g : Fin 64) (k : Fin 12800) : Decidable (Hit x1 g k) := by unfold Hit; infer_instance

/-- The iota word of a graph number below 64 equals a word exactly when the word's signed value is that number. -/
theorem ofNat_eq_iff (g : Fin 64) (w : BitVec 32) : BitVec.ofNat 32 g.val = w ↔ w.toInt = (g.val : ℤ) := by
  have hg := g.isLt
  have h1 : (BitVec.ofNat 32 g.val).toInt = (g.val : ℤ) := by
    rw [BitVec.toInt_eq_toNat_cond, BitVec.toNat_ofNat]
    have : g.val % 2 ^ 32 = g.val := Nat.mod_eq_of_lt (by omega)
    rw [this]
    split_ifs with h
    · rfl
    · exfalso; omega
  constructor
  · intro h; rw [← h]; exact h1
  · intro h; exact BitVec.eq_of_toInt_eq (h1.trans h.symm)

/-- A one-bit word widened to 32 bits and read as a signed integer is 1 or 0. -/
theorem ofBool_setWidth_toInt (c : Bool) : ((BitVec.ofBool c).setWidth 32).toInt = if c then 1 else 0 := by
  cases c <;> decide

/-- The one-hot matrix at `(g, k)`: one when row `k` belongs to graph `g`, else zero. -/
theorem pay3_apply (x1 : Vec Ideal S1x12800 .i32) (g : Fin 64) (k : Fin 12800) :
    k1_pay3 (F := Ideal) x1 (ix2 g k) = if Hit x1 g k then (1 : EReal) else 0 := by
  show (((((IntOp.cmpi .eq (iota .tc S64x12800 32 [0] Facts₀.iota_S64x12800_d0_w32 (ix2 g k))
      (broadcastTo S64x12800 (shapeCast S1x12800 x1 Facts₀.shapeCasts_S1x12800_S1x12800) Facts₀.broadcasts_S1x12800_S64x12800 (ix2 g k))).setWidth 32).toInt : ℝ) : EReal)) = _
  rw [iota_single_apply, broadcastTo_1b_ab_apply, shapeCast_self]
  have hc : IntOp.cmpi .eq (BitVec.ofNat 32 g.val) (x1 (ix2 (0 : Fin 1) k))
      = BitVec.ofBool (BitVec.ofNat 32 g.val == x1 (ix2 (0 : Fin 1) k)) := rfl
  show ((((IntOp.cmpi .eq (BitVec.ofNat 32 g.val) (x1 (ix2 (0 : Fin 1) k))).setWidth 32).toInt : ℝ) : EReal) = _
  rw [hc, ofBool_setWidth_toInt]
  by_cases h : Hit x1 g k
  · rw [if_pos h]
    have e : (BitVec.ofNat 32 g.val == x1 (ix2 (0 : Fin 1) k)) = true := by
      rw [beq_iff_eq]; exact (ofNat_eq_iff g _).2 h
    rw [e]; simp
  · rw [if_neg h]
    have e : (BitVec.ofNat 32 g.val == x1 (ix2 (0 : Fin 1) k)) = false := by
      rw [beq_eq_false_iff_ne]; intro e; exact h ((ofNat_eq_iff g _).1 e)
    rw [e]; simp

theorem d1_lhs0 (i : S64x10.Idx) (q : dot_S64x12800_S12800x10_S64x10_1_0_0_1_n_n.contr.Idx) : (dot_S64x12800_S12800x10_S64x10_1_0_0_1_n_n.lhsIdx i q 0).val = (i 0).val := by
  unfold DotDims.lhsIdx
  rw [dif_neg (show ¬(0 : Fin S64x12800.rank) ∈ dot_S64x12800_S12800x10_S64x10_1_0_0_1_n_n.lhsBatch by decide), dif_pos (show (0 : Fin S64x12800.rank) ∈ dot_S64x12800_S12800x10_S64x10_1_0_0_1_n_n.lhsNonContracting by decide)]
  rfl
theorem d1_lhs1 (i : S64x10.Idx) (q : dot_S64x12800_S12800x10_S64x10_1_0_0_1_n_n.contr.Idx) : (dot_S64x12800_S12800x10_S64x10_1_0_0_1_n_n.lhsIdx i q 1).val = (q ⟨0, by decide⟩).val :=
  dot_S64x12800_S12800x10_S64x10_1_0_0_1_n_n.lhsIdx_val_of_single rfl i q
theorem d1_rhs0 (i : S64x10.Idx) (q : dot_S64x12800_S12800x10_S64x10_1_0_0_1_n_n.contr.Idx) : (dot_S64x12800_S12800x10_S64x10_1_0_0_1_n_n.rhsIdx i q 0).val = (q ⟨0, by decide⟩).val :=
  dot_S64x12800_S12800x10_S64x10_1_0_0_1_n_n.rhsIdx_val_of_single rfl i q
theorem d1_rhs1 (i : S64x10.Idx) (q : dot_S64x12800_S12800x10_S64x10_1_0_0_1_n_n.contr.Idx) : (dot_S64x12800_S12800x10_S64x10_1_0_0_1_n_n.rhsIdx i q 1).val = (i 1).val := by
  unfold DotDims.rhsIdx
  rw [dif_neg (show ¬(1 : Fin S12800x10.rank) ∈ dot_S64x12800_S12800x10_S64x10_1_0_0_1_n_n.rhsBatch by decide), dif_pos (show (1 : Fin S12800x10.rank) ∈ dot_S64x12800_S12800x10_S64x10_1_0_0_1_n_n.rhsNonContracting by decide)]
  rfl

/-- The first product's left index at contraction coordinate `k` is `(g, k)`. -/
theorem d1_lhsIdx (g : Fin 64) (d : Fin 10) (k : Fin 12800) :
    dot_S64x12800_S12800x10_S64x10_1_0_0_1_n_n.lhsIdx (ix2 g d) ((contrEquiv1 dot_S64x12800_S12800x10_S64x10_1_0_0_1_n_n 12800 rfl rfl).symm k) = ix2 g k :=
  funext fun a => Fin.ext (by
    match a with
    | ⟨0, _⟩ => exact d1_lhs0 _ _
    | ⟨1, _⟩ => exact (d1_lhs1 _ _).trans (contrEquiv1_symm_val dot_S64x12800_S12800x10_S64x10_1_0_0_1_n_n 12800 rfl rfl k))
/-- The first product's right index at contraction coordinate `k` is `(k, d)`. -/
theorem d1_rhsIdx (g : Fin 64) (d : Fin 10) (k : Fin 12800) :
    dot_S64x12800_S12800x10_S64x10_1_0_0_1_n_n.rhsIdx (ix2 g d) ((contrEquiv1 dot_S64x12800_S12800x10_S64x10_1_0_0_1_n_n 12800 rfl rfl).symm k) = ix2 k d :=
  funext fun a => Fin.ext (by
    match a with
    | ⟨0, _⟩ => exact (d1_rhs0 _ _).trans (contrEquiv1_symm_val dot_S64x12800_S12800x10_S64x10_1_0_0_1_n_n 12800 rfl rfl k)
    | ⟨1, _⟩ => exact d1_rhs1 _ _)

/-- A vector `[a]` cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem d2_lhs0 (i : S64x1.Idx) (q : dot_S64x10_S10x1_S64x1_1_0_0_1_n_n.contr.Idx) : (dot_S64x10_S10x1_S64x1_1_0_0_1_n_n.lhsIdx i q 0).val = (i 0).val := by
  unfold DotDims.lhsIdx
  rw [dif_neg (show ¬(0 : Fin S64x10.rank) ∈ dot_S64x10_S10x1_S64x1_1_0_0_1_n_n.lhsBatch by decide), dif_pos (show (0 : Fin S64x10.rank) ∈ dot_S64x10_S10x1_S64x1_1_0_0_1_n_n.lhsNonContracting by decide)]
  rfl
theorem d2_lhs1 (i : S64x1.Idx) (q : dot_S64x10_S10x1_S64x1_1_0_0_1_n_n.contr.Idx) : (dot_S64x10_S10x1_S64x1_1_0_0_1_n_n.lhsIdx i q 1).val = (q ⟨0, by decide⟩).val :=
  dot_S64x10_S10x1_S64x1_1_0_0_1_n_n.lhsIdx_val_of_single rfl i q
theorem d2_rhs0 (i : S64x1.Idx) (q : dot_S64x10_S10x1_S64x1_1_0_0_1_n_n.contr.Idx) : (dot_S64x10_S10x1_S64x1_1_0_0_1_n_n.rhsIdx i q 0).val = (q ⟨0, by decide⟩).val :=
  dot_S64x10_S10x1_S64x1_1_0_0_1_n_n.rhsIdx_val_of_single rfl i q
theorem d2_rhs1 (i : S64x1.Idx) (q : dot_S64x10_S10x1_S64x1_1_0_0_1_n_n.contr.Idx) : (dot_S64x10_S10x1_S64x1_1_0_0_1_n_n.rhsIdx i q 1).val = (i 1).val := by
  unfold DotDims.rhsIdx
  rw [dif_neg (show ¬(1 : Fin S10x1.rank) ∈ dot_S64x10_S10x1_S64x1_1_0_0_1_n_n.rhsBatch by decide), dif_pos (show (1 : Fin S10x1.rank) ∈ dot_S64x10_S10x1_S64x1_1_0_0_1_n_n.rhsNonContracting by decide)]
  rfl

/-- The second product's left index at contraction coordinate `d` is `(g, d)`. -/
theorem d2_lhsIdx (g : Fin 64) (d : Fin 10) :
    dot_S64x10_S10x1_S64x1_1_0_0_1_n_n.lhsIdx (ix2 g (0 : Fin 1)) ((contrEquiv1 dot_S64x10_S10x1_S64x1_1_0_0_1_n_n 10 rfl rfl).symm d) = ix2 g d :=
  funext fun a => Fin.ext (by
    match a with
    | ⟨0, _⟩ => exact d2_lhs0 _ _
    | ⟨1, _⟩ => exact (d2_lhs1 _ _).trans (contrEquiv1_symm_val dot_S64x10_S10x1_S64x1_1_0_0_1_n_n 10 rfl rfl d))
/-- The second product's right index at contraction coordinate `d` is `(d, 0)`. -/
theorem d2_rhsIdx (g : Fin 64) (d : Fin 10) :
    dot_S64x10_S10x1_S64x1_1_0_0_1_n_n.rhsIdx (ix2 g (0 : Fin 1)) ((contrEquiv1 dot_S64x10_S10x1_S64x1_1_0_0_1_n_n 10 rfl rfl).symm d) = ix2 d (0 : Fin 1) :=
  funext fun a => Fin.ext (by
    match a with
    | ⟨0, _⟩ => exact (d2_rhs0 _ _).trans (contrEquiv1_symm_val dot_S64x10_S10x1_S64x1_1_0_0_1_n_n 10 rfl rfl d)
    | ⟨1, _⟩ => exact d2_rhs1 _ _)

/-- The reset value of the sums accumulator is zero. -/
theorem pay1_apply (j : S64x10.Idx) : k1_pay1 (F := Ideal) j = (0 : EReal) := by
  show shapeCast S64x10 (broadcast S64x10 (FloatOps.ofBits (F := Ideal) .f32 0x00000000#32)) Facts₀.shapeCasts_S64x10_S64x10 j = (0 : EReal)
  rw [shapeCast_self]
  exact Ideal.ofBits_zero_f32

/-- The reset value of the counts accumulator is zero. -/
theorem pay2_apply (j : S64x1.Idx) : k1_pay2 (F := Ideal) j = (0 : EReal) := by
  show shapeCast S64x1 (broadcast S64x1 (FloatOps.ofBits (F := Ideal) .f32 0x00000000#32)) Facts₀.shapeCasts_S64x1_S64x1 j = (0 : EReal)
  rw [shapeCast_self]
  exact Ideal.ofBits_zero_f32

/-- One step of the sums accumulator at entry `(g, d)`. -/
theorem pay4_apply (x0 : Vec Ideal S12800x10 .f32) (x1 : Vec Ideal S1x12800 .i32) (s : Vec Ideal S64x10 .f32) (g : Fin 64) (d : Fin 10) :
    k1_pay4 (F := Ideal) x0 x1 s (ix2 g d)
      = (s (ix2 g d) : EReal) + ∑ k : Fin 12800, if Hit x1 g k then (x0 (ix2 k d) : EReal) else 0 := by
  unfold k1_pay4
  rw [shapeCast_self]
  refine (addf_apply _ _ _).trans ?_
  refine congrArg (s (ix2 g d) + ·) ?_
  refine (Ideal.matmul_constant_zero_apply _ none _ _ _).trans ?_
  rw [← Equiv.sum_comp (contrEquiv1 dot_S64x12800_S12800x10_S64x10_1_0_0_1_n_n 12800 rfl rfl).symm]
  refine Finset.sum_congr rfl fun k _ => ?_
  rw [d1_lhsIdx, d1_rhsIdx, truncf_apply, truncf_apply, pay3_apply, shapeCast_self]
  split_ifs
  · exact one_mul _
  · exact zero_mul _

/-- One step of the counts accumulator at graph `g`. -/
theorem pay5_apply (x1 : Vec Ideal S1x12800 .i32) (s : Vec Ideal S64x1 .f32) (g : Fin 64) :
    k1_pay5 (F := Ideal) x1 s (ix2 g (0 : Fin 1))
      = (s (ix2 g (0 : Fin 1)) : EReal) + ∑ k : Fin 12800, if Hit x1 g k then (1 : EReal) else 0 := by
  unfold k1_pay5
  rw [shapeCast_self]
  refine (addf_apply _ _ _).trans ?_
  refine congrArg (s (ix2 g (0 : Fin 1)) + ·) ?_
  rw [shapeCast_a_a1_apply]
  refine (Ideal.multiReduction_add_single _ _ _ _ _ _).trans ?_
  show ∑ k : Fin 12800, k1_pay3 x1 (Facts₀.reduces_S64x12800_S64.lift (ix1 g) k) = _
  refine Finset.sum_congr rfl fun k _ => ?_
  have e : Facts₀.reduces_S64x12800_S64.lift (ix1 g) k = ix2 g k :=
    funext fun a => Fin.ext (by
      match a with
      | ⟨0, _⟩ => rfl
      | ⟨1, _⟩ => rfl)
  rw [e, pay3_apply]

/-- The last point's store at graph `g`. -/
theorem pay6_apply (S : Vec Ideal S64x10 .f32) (K : Vec Ideal S64x1 .f32) (wc : Vec Ideal S10x1 .f32) (g : Fin 64) :
    k1_pay6 (F := Ideal) S K wc (ix2 g (0 : Fin 1))
      = Ideal.logistic (∑ d : Fin 10, Ideal.div (S (ix2 g d)) (max (K (ix2 g (0 : Fin 1))) 1) * (wc (ix2 d (0 : Fin 1)) : EReal)) := by
  unfold k1_pay6
  refine congrArg Ideal.logistic ?_
  refine (Ideal.matmul_constant_zero_apply _ none _ _ _).trans ?_
  rw [← Equiv.sum_comp (contrEquiv1 dot_S64x10_S10x1_S64x1_1_0_0_1_n_n 10 rfl rfl).symm]
  refine Finset.sum_congr rfl fun d _ => ?_
  rw [d2_lhsIdx, d2_rhsIdx, truncf_apply, truncf_apply, shapeCast_self, divf_apply, broadcastTo_a1_ab_apply,
    maximumf_apply, broadcast_apply, Ideal.ofBits_def, Ideal.ofBits_one_f32]

end Cert.KernelIdeal.PlM

end
-- ==== Proof.PoolValue.lean ====
/-
  What the second launch leaves in the result array, graph by graph.

  Only the last of the eight points writes the result block back, and that block is the whole 64 × 1 array; so the
  array ends at what the last point stored: the logistic function of the mean rows times the projection column,
  computed from the two accumulators after the last point. Unrolling the eight steps, the sums accumulator holds at
  `(g, d)` the sum over the points `t` and the rows `k` of a point of the aggregate entry `(12800 t + k, d)` where
  the id word at `12800 t + k` is `g`, which is the sum over all 102400 padded rows; the counts accumulator the
  number of such rows. Block `t` of a row-blocked array is rows `[12800 t, 12800 (t+1))`; the projection column is
  one block, the same at every point.
-/
import proofs.«431282_j74801150427782_3_alg».proof.Proof.PoolBody
import proofs.«431282_j74801150427782_3_alg».proof.Proof.PoolMath
import Idealize.ShloMosaic.Lib.Pipeline.Value
import Idealize.ShloMosaic.Lib.ValueIdx
import Idealize.ShloMosaic.PureOps.Ideal.Laws

set_option maxRecDepth 16384

noncomputable section

namespace Cert.KernelIdeal.PlV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The padded aggregate, the padded id row, the projection column and the result array, at their literal types. -/
abbrev aggP (c : Dev nD) : Vec Ideal S102400x10 .f32 := V c main_v23
abbrev gidP (c : Dev nD) : Vec Ideal S1x102400 .i32 := V c main_v25
abbrev proj (c : Dev nD) : Vec Ideal S10x1 .f32 := V c main_v22
abbrev res (c : Dev nD) : Vec Ideal S64x1 .f32 := (Pl.dat (F := Ideal) V c).arrAt 3 cfg1.N

/-- Padded row `j` of 102400 belongs to graph `g`: its id word in the launch's id row, read signed, is `g`. -/
def Row (c : Dev nD) (g : Fin 64) (j : Fin 102400) : Prop := (gidP V c (ix2 (0 : Fin 1) j)).toInt = (g.val : ℤ)

instance (c : Dev nD) (g : Fin 64) (j : Fin 102400) : Decidable (Row V c g j) := by unfold Row; infer_instance

/-- The one write-back, at the last point, writes the last point's store: the block at index (0, 0) of the 64 × 1
    array, read at zero offsets, is the array. -/
theorem flushed_eq (c : Dev nD) (t : Fin cfg1.N) (hf : (cfg1.win 3).flush t = true) :
    (Pl.dat (F := Ideal) V c).flushed 3 t = ((cfg1.win 3).blk t).view.read (Elt Ideal) (Pl.outAt (F := Ideal) V c t1_7) := by
  have hN : cfg1.N = 8 := N_1
  have h7 : t.val = 7 := by have := (flush1_3 t).mp hf; have := t.isLt; omega
  obtain rfl : t = t1_7 := Fin.ext h7
  show (cfg1.win 3).cut (grid1.coords t1_7) ((Pl.dat (F := Ideal) V c).after 3 t1_7) = _
  rw [Pl.after_3]
  have hz' : (fun a => win1_3.index t1_7 a * main_v26.ty.shape.size a) = fun _ => 0 := funext fun a => by fin_cases a <;> decide
  exact (Memref.read_access_unit_zero (Elt Ideal) main_v26 hz' (fun a => by rw [congrFun hz' a]; simp) (Pl.outAt (F := Ideal) V c t1_7)).symm

/-- So the result array ends at the last point's store. -/
theorem res_eq (c : Dev nD) : res V c = Pl.outAt (F := Ideal) V c t1_7 :=
  (Pl.dat (F := Ideal) V c).arrAt_eq_of_cover 3 (Pl.outAt (F := Ideal) V c t1_7) (flushed_eq V c) fun i =>
    ⟨t1_7, (flush1_3 t1_7).mpr rfl, by
      show i ∈ ((View.whole main_v26).slice (win1_3.rect t1_7)).set
      rw [View.set_slice_whole, Rect.mem_set_unit]
      intro a
      have h0 : (i 0 : Nat) < 64 := (i 0).isLt
      have h1 : (i 1 : Nat) < 1 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 64 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 1 from by decide +kernel]; omega⟩

/-- The sums accumulator after point `n`, at entry `(g, d)`: the sum over the points up to `n` and a point's rows of
    the point's aggregate entries on graph `g`'s rows. -/
theorem accS_apply (c : Dev nD) (g : Fin 64) (d : Fin 10) : ∀ n : ℕ,
    (Pl.accS (F := Ideal) V c n (ix2 g d) : EReal)
      = ∑ t ∈ Finset.range (n + 1), ∑ k : Fin 12800,
          if PlM.Hit (Pl.blkG (F := Ideal) V c t) g k then (Pl.blkH (F := Ideal) V c t (ix2 k d) : EReal) else 0
  | 0 => by
    show (k1_pay4 (F := Ideal) (Pl.blkH (F := Ideal) V c 0) (Pl.blkG (F := Ideal) V c 0) (k1_pay1 (F := Ideal)) (ix2 g d) : EReal) = _
    rw [PlM.pay4_apply, PlM.pay1_apply, zero_add, Finset.sum_range_one]
  | n + 1 => by
    show (k1_pay4 (F := Ideal) (Pl.blkH (F := Ideal) V c (n + 1)) (Pl.blkG (F := Ideal) V c (n + 1)) (Pl.accS (F := Ideal) V c n) (ix2 g d) : EReal) = _
    rw [PlM.pay4_apply, accS_apply c g d n, Finset.sum_range_succ _ (n + 1)]

/-- The counts accumulator after point `n`, at graph `g`: the number of graph `g`'s rows among the points up to `n`. -/
theorem accK_apply (c : Dev nD) (g : Fin 64) : ∀ n : ℕ,
    (Pl.accK (F := Ideal) V c n (ix2 g (0 : Fin 1)) : EReal)
      = ∑ t ∈ Finset.range (n + 1), ∑ k : Fin 12800,
          if PlM.Hit (Pl.blkG (F := Ideal) V c t) g k then (1 : EReal) else 0
  | 0 => by
    show (k1_pay5 (F := Ideal) (Pl.blkG (F := Ideal) V c 0) (k1_pay2 (F := Ideal)) (ix2 g (0 : Fin 1)) : EReal) = _
    rw [PlM.pay5_apply, PlM.pay2_apply, zero_add, Finset.sum_range_one]
  | n + 1 => by
    show (k1_pay5 (F := Ideal) (Pl.blkG (F := Ideal) V c (n + 1)) (Pl.accK (F := Ideal) V c n) (ix2 g (0 : Fin 1)) : EReal) = _
    rw [PlM.pay5_apply, accK_apply c g n, Finset.sum_range_succ _ (n + 1)]

/-- Point `t`'s aggregate block at `(k, d)` is the padded aggregate at row `12800 t + k`. -/
theorem blkH_apply (c : Dev nD) (t : Fin cfg1.N) (k : Fin 12800) (d : Fin 10) (h : 12800 * t.val + k.val < 102400) :
    (Pl.blkH (F := Ideal) V c t.val (ix2 k d) : EReal) = aggP V c (ix2 ⟨12800 * t.val + k.val, h⟩ d) := by
  have hi : win1_0.index t 0 = t.val ∧ win1_0.index t 1 = 0 :=
    (by decide +kernel : ∀ t : Fin grid1.N, win1_0.index t (0 : Fin 2) = t.val ∧ win1_0.index t (1 : Fin 2) = 0) t
  rw [Pl.blkH_val]
  unfold Pl.iblk
  rw [View.read_apply]
  show V c main_v23 _ = V c main_v23 _
  refine congrArg (V c main_v23) ?_
  funext a
  apply Fin.ext
  match a with
  | ⟨0, _⟩ => show win1_0.index t 0 * 12800 + 1 * k.val = 12800 * t.val + k.val; rw [hi.1]; omega
  | ⟨1, _⟩ => show win1_0.index t 1 * 10 + 1 * d.val = d.val; rw [hi.2]; omega

/-- Point `t`'s id block at `(0, k)` is the padded id row at column `12800 t + k`. -/
theorem blkG_apply (c : Dev nD) (t : Fin cfg1.N) (k : Fin 12800) (h : 12800 * t.val + k.val < 102400) :
    Pl.blkG (F := Ideal) V c t.val (ix2 (0 : Fin 1) k) = gidP V c (ix2 (0 : Fin 1) ⟨12800 * t.val + k.val, h⟩) := by
  have hi : win1_1.index t 0 = 0 ∧ win1_1.index t 1 = t.val :=
    (by decide +kernel : ∀ t : Fin grid1.N, win1_1.index t (0 : Fin 2) = 0 ∧ win1_1.index t (1 : Fin 2) = t.val) t
  rw [Pl.blkG_val]
  unfold Pl.iblk
  rw [View.read_apply]
  show V c main_v25 _ = V c main_v25 _
  refine congrArg (V c main_v25) ?_
  funext a
  apply Fin.ext
  match a with
  | ⟨0, _⟩ => show win1_1.index t 0 * 1 + 1 * 0 = 0; rw [hi.1]
  | ⟨1, _⟩ => show win1_1.index t 1 * 12800 + 1 * k.val = 12800 * t.val + k.val; rw [hi.2]; omega

/-- The projection block is the whole projection column, at every point. -/
theorem blkC_apply (c : Dev nD) (t : Fin cfg1.N) (d : Fin 10) :
    (Pl.iblk (F := Ideal) V c 2 t (ix2 d (0 : Fin 1)) : EReal) = proj V c (ix2 d (0 : Fin 1)) := by
  have hi : win1_2.index t 0 = 0 ∧ win1_2.index t 1 = 0 :=
    (by decide +kernel : ∀ t : Fin grid1.N, win1_2.index t (0 : Fin 2) = 0 ∧ win1_2.index t (1 : Fin 2) = 0) t
  unfold Pl.iblk
  rw [View.read_apply]
  show V c main_v22 _ = V c main_v22 _
  refine congrArg (V c main_v22) ?_
  funext a
  apply Fin.ext
  match a with
  | ⟨0, _⟩ => show win1_2.index t 0 * 10 + 1 * d.val = d.val; rw [hi.1]; omega
  | ⟨1, _⟩ => show win1_2.index t 1 * 1 + 1 * 0 = 0; rw [hi.2]

/-- The 102400 padded rows are the eight points' 12800 rows each: row `12800 t + k` is row `k` of point `t`. -/
def rowEquiv : Fin 8 × Fin 12800 ≃ Fin 102400 where
  toFun p := ⟨12800 * p.1.val + p.2.val, by have := p.1.isLt; have := p.2.isLt; omega⟩
  invFun j := (⟨j.val / 12800, by have := j.isLt; omega⟩, ⟨j.val % 12800, by omega⟩)
  left_inv p := by
    obtain ⟨a, b⟩ := p
    have ha := a.isLt
    have hb := b.isLt
    refine Prod.ext (Fin.ext ?_) (Fin.ext ?_)
    · show (12800 * a.val + b.val) / 12800 = a.val
      omega
    · show (12800 * a.val + b.val) % 12800 = b.val
      omega
  right_inv j := Fin.ext (by
    show 12800 * (j.val / 12800) + j.val % 12800 = j.val
    omega)

/-- A sum over the padded rows is the sum over the points of the sums over a point's rows. -/
theorem sum_points {M : Type*} [AddCommMonoid M] (G : Fin 102400 → M) :
    ∑ j, G j = ∑ t : Fin 8, ∑ k : Fin 12800, G (rowEquiv (t, k)) := by
  rw [← Equiv.sum_comp rowEquiv G, Fintype.sum_prod_type]

/-- The blocks of point `t` below eight, with the point a natural number. -/
theorem blkH_nat (c : Dev nD) (t : ℕ) (ht : t < 8) (k : Fin 12800) (d : Fin 10) :
    (Pl.blkH (F := Ideal) V c t (ix2 k d) : EReal) = aggP V c (ix2 (rowEquiv (⟨t, ht⟩, k)) d) :=
  blkH_apply V c ⟨t, by rw [show cfg1.N = 8 from N_1]; exact ht⟩ k d _

/-- Likewise the id block. -/
theorem blkG_nat (c : Dev nD) (t : ℕ) (ht : t < 8) (k : Fin 12800) :
    Pl.blkG (F := Ideal) V c t (ix2 (0 : Fin 1) k) = gidP V c (ix2 (0 : Fin 1) (rowEquiv (⟨t, ht⟩, k))) :=
  blkG_apply V c ⟨t, by rw [show cfg1.N = 8 from N_1]; exact ht⟩ k _

/-- Row `k` of point `t` is on graph `g` exactly when padded row `12800 t + k` is. -/
theorem hit_iff (c : Dev nD) (g : Fin 64) (t : ℕ) (ht : t < 8) (k : Fin 12800) :
    PlM.Hit (Pl.blkG (F := Ideal) V c t) g k ↔ Row V c g (rowEquiv (⟨t, ht⟩, k)) := by
  unfold PlM.Hit Row
  rw [blkG_nat V c t ht k]

/-- After the last point the sums accumulator holds the sums over all padded rows. -/
theorem sums_eq (c : Dev nD) (g : Fin 64) (d : Fin 10) :
    (Pl.accS (F := Ideal) V c 7 (ix2 g d) : EReal)
      = ∑ j : Fin 102400, if Row V c g j then (aggP V c (ix2 j d) : EReal) else 0 := by
  rw [accS_apply, Finset.sum_range, sum_points]
  refine Finset.sum_congr rfl fun t _ => Finset.sum_congr rfl fun k _ => ?_
  rw [blkH_nat V c t.val t.isLt k d]
  by_cases hr : Row V c g (rowEquiv (t, k))
  · rw [if_pos hr, if_pos ((hit_iff V c g t.val t.isLt k).mpr hr)]
  · rw [if_neg hr, if_neg (fun hh => hr ((hit_iff V c g t.val t.isLt k).mp hh))]

/-- After the last point the counts accumulator holds the number of graph `g`'s padded rows. -/
theorem counts_eq (c : Dev nD) (g : Fin 64) :
    (Pl.accK (F := Ideal) V c 7 (ix2 g (0 : Fin 1)) : EReal)
      = ∑ j : Fin 102400, if Row V c g j then (1 : EReal) else 0 := by
  rw [accK_apply, Finset.sum_range, sum_points]
  refine Finset.sum_congr rfl fun t _ => Finset.sum_congr rfl fun k _ => ?_
  by_cases hr : Row V c g (rowEquiv (t, k))
  · rw [if_pos hr, if_pos ((hit_iff V c g t.val t.isLt k).mpr hr)]
  · rw [if_neg hr, if_neg (fun hh => hr ((hit_iff V c g t.val t.isLt k).mp hh))]

/-- After the eight points, row `g` of the result array is the logistic function of the sum over the ten features
    `d` of (the sum of the padded aggregate's entries `(j, d)` over graph `g`'s rows, divided by the larger of the
    number of those rows and one) times entry `d` of the projection column. -/
theorem result (c : Dev nD) (g : Fin 64) :
    res V c (ix2 g (0 : Fin 1))
      = Ideal.logistic (∑ d : Fin 10,
          Ideal.div (∑ j : Fin 102400, if Row V c g j then (aggP V c (ix2 j d) : EReal) else 0)
              (max (∑ j : Fin 102400, if Row V c g j then (1 : EReal) else 0) 1)
            * (proj V c (ix2 d (0 : Fin 1)) : EReal)) := by
  rw [res_eq]
  show (k1_pay6 (F := Ideal) (Pl.accS (F := Ideal) V c 7) (Pl.accK (F := Ideal) V c 7) (Pl.iblk (F := Ideal) V c 2 t1_7) (ix2 g (0 : Fin 1)) : EReal) = _
  rw [PlM.pay6_apply]
  refine congrArg Ideal.logistic (Finset.sum_congr rfl fun d _ => ?_)
  rw [sums_eq, counts_eq, blkC_apply]

end Cert.KernelIdeal.PlV

end
-- ==== Proof.PoolSpec.lean ====
/-
  Mean pooling followed by two linear maps, in the two arrangements the programs use, with no program in sight.

  A node `n` of 100000 belongs to graph `g` of 64 when its graph-id word, read as a signed integer, is `g`
  (`InGraph`); a word outside `[0, 64)` puts the node in no graph. For node features `A n d` (ten per node),
  `pooled` sums a per-node quantity over a graph's nodes and `count` counts them.

  * `headK`: sum the raw features per graph, divide by `max count 1`, then apply the PRODUCT matrix
    `W2 · W3` (a column of ten): `σ(Σ_d (Σ_{n∈g} A n d / c_g) · (Σ_e W2 d e · W3 e))`.
  * `headR`: apply `W2` to every node first, sum per graph, divide, then apply `W3`:
    `σ(Σ_e (Σ_{n∈g} Σ_d A n d · W2 d e / c_g) · W3 e)`.

  Over the reals the two are equal by linearity of the sum and associativity of the matrix products
  (`headK_eq_headR`). On the extended reals distributivity fails at infinities, so the law is stated for
  finite `A`, `W2`, `W3`; `σ` is `Ideal.logistic`, the quotient `Ideal.div`.
-/
import Idealize.ShloMosaic.PureOps.Ideal
import Idealize.ShloMosaic.Lib.ValueIdx

noncomputable section

namespace Cert.PoolSpec

open Idealize.ShloMosaic Idealize.ShloMosaic.ValueIdx

/-- Node `n` lies in graph `g`: its graph-id word, read signed, is `g`. -/
def InGraph (gid : (⟨1, ![100000]⟩ : Shape).Idx → BitVec 32) (g : Fin 64) (n : Fin 100000) : Prop :=
  (gid (ix1 n)).toInt = (g.val : ℤ)

instance (gid : (⟨1, ![100000]⟩ : Shape).Idx → BitVec 32) (g : Fin 64) (n : Fin 100000) : Decidable (InGraph gid g n) := by
  unfold InGraph; infer_instance

/-- The sum of a per-node quantity over the nodes of graph `g`. -/
def pooled (f : Fin 100000 → EReal) (gid : (⟨1, ![100000]⟩ : Shape).Idx → BitVec 32) (g : Fin 64) : EReal :=
  ∑ n : Fin 100000, if InGraph gid g n then f n else 0

/-- The number of nodes of graph `g`. -/
def count (gid : (⟨1, ![100000]⟩ : Shape).Idx → BitVec 32) (g : Fin 64) : EReal := pooled (fun _ => 1) gid g

/-- Pool the raw features, take the mean, apply the product matrix `W2 · W3`, then the logistic function. -/
def headK (A : Fin 100000 → Fin 10 → EReal) (W2 : Fin 10 → Fin 10 → EReal) (W3 : Fin 10 → EReal)
    (gid : (⟨1, ![100000]⟩ : Shape).Idx → BitVec 32) (g : Fin 64) : EReal :=
  Ideal.logistic (∑ d : Fin 10, Ideal.div (pooled (fun n => A n d) gid g) (max (count gid g) 1) * (∑ e : Fin 10, W2 d e * W3 e))

/-- Apply `W2` per node, pool, take the mean, apply `W3`, then the logistic function. -/
def headR (A : Fin 100000 → Fin 10 → EReal) (W2 : Fin 10 → Fin 10 → EReal) (W3 : Fin 10 → EReal)
    (gid : (⟨1, ![100000]⟩ : Shape).Idx → BitVec 32) (g : Fin 64) : EReal :=
  Ideal.logistic (∑ e : Fin 10, Ideal.div (pooled (fun n => ∑ d : Fin 10, A n d * W2 d e) gid g) (max (count gid g) 1) * W3 e)

/-- The coercion of reals into the extended reals goes through a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Pooling a real-valued quantity gives a real: the real sum over the graph's nodes. -/
theorem pooled_coe (f : Fin 100000 → ℝ) (gid : (⟨1, ![100000]⟩ : Shape).Idx → BitVec 32) (g : Fin 64) :
    pooled (fun n => (f n : EReal)) gid g
      = ((∑ n : Fin 100000, if InGraph gid g n then f n else 0 : ℝ) : EReal) := by
  unfold pooled
  rw [coe_sum]
  refine Finset.sum_congr rfl (fun n _ => ?_)
  split_ifs
  · rfl
  · exact EReal.coe_zero.symm

/-- The real number of nodes of graph `g`. -/
def countR (gid : (⟨1, ![100000]⟩ : Shape).Idx → BitVec 32) (g : Fin 64) : ℝ :=
  ∑ n : Fin 100000, if InGraph gid g n then (1 : ℝ) else 0

theorem count_coe (gid : (⟨1, ![100000]⟩ : Shape).Idx → BitVec 32) (g : Fin 64) :
    count gid g = (countR gid g : EReal) := by
  have h := pooled_coe (fun _ => (1 : ℝ)) gid g
  rw [EReal.coe_one] at h
  exact h

/-- The divisor `max count 1` is a real number, at least one. -/
theorem max_count_coe (gid : (⟨1, ![100000]⟩ : Shape).Idx → BitVec 32) (g : Fin 64) :
    max (count gid g) 1 = ((max (countR gid g) 1 : ℝ) : EReal) := by
  rw [count_coe]
  rcases le_total (countR gid g) 1 with h | h
  · rw [max_eq_right h, max_eq_right (by exact_mod_cast h), EReal.coe_one]
  · rw [max_eq_left h, max_eq_left (by exact_mod_cast h)]

theorem max_countR_ne_zero (gid : (⟨1, ![100000]⟩ : Shape).Idx → BitVec 32) (g : Fin 64) :
    max (countR gid g) 1 ≠ 0 :=
  (lt_of_lt_of_le one_pos (le_max_right _ _)).ne'

/-- Pooling commutes with a linear map applied per node: the pooled image under `W2` is the image of the pooled
    features. -/
theorem pooledR_linear (a : Fin 100000 → Fin 10 → ℝ) (w2 : Fin 10 → Fin 10 → ℝ) (P : Fin 100000 → Prop)
    [DecidablePred P] (e : Fin 10) :
    (∑ n : Fin 100000, if P n then ∑ d : Fin 10, a n d * w2 d e else 0)
      = ∑ d : Fin 10, (∑ n : Fin 100000, if P n then a n d else 0) * w2 d e := by
  have h1 : ∀ n : Fin 100000, (if P n then ∑ d : Fin 10, a n d * w2 d e else 0)
      = ∑ d : Fin 10, (if P n then a n d else 0) * w2 d e := by
    intro n
    split_ifs
    · rfl
    · simp
  rw [Finset.sum_congr rfl (fun n _ => h1 n), Finset.sum_comm]
  refine Finset.sum_congr rfl (fun d _ => ?_)
  rw [Finset.sum_mul]

/-- Associativity of the two matrix products around the division by the count: scaling the pooled row by `k` and
    applying `W2 · W3` is applying `W2`, scaling, then applying `W3`. -/
theorem mean_assoc (P : Fin 10 → ℝ) (w2 : Fin 10 → Fin 10 → ℝ) (w3 : Fin 10 → ℝ) (k : ℝ) :
    (∑ d : Fin 10, P d * k * ∑ e : Fin 10, w2 d e * w3 e)
      = ∑ e : Fin 10, (∑ d : Fin 10, P d * w2 d e) * k * w3 e := by
  simp only [Finset.mul_sum, Finset.sum_mul]
  rw [Finset.sum_comm]
  refine Finset.sum_congr rfl (fun e _ => Finset.sum_congr rfl (fun d _ => ?_))
  ring

/-- The two arrangements agree on finite data: the mean of the nodes' images under `W2`, mapped by `W3`, is the
    mean of the nodes mapped by `W2 · W3`. -/
theorem headK_eq_headR (A : Fin 100000 → Fin 10 → EReal) (W2 : Fin 10 → Fin 10 → EReal) (W3 : Fin 10 → EReal)
    (gid : (⟨1, ![100000]⟩ : Shape).Idx → BitVec 32) (g : Fin 64)
    (hA : ∀ n d, ∃ r : ℝ, A n d = (r : EReal)) (hW2 : ∀ d e, ∃ r : ℝ, W2 d e = (r : EReal)) (hW3 : ∀ e, ∃ r : ℝ, W3 e = (r : EReal)) :
    headK A W2 W3 gid g = headR A W2 W3 gid g := by
  choose a ha using hA
  choose w2 hw2 using hW2
  choose w3 hw3 using hW3
  obtain rfl : A = fun n d => (a n d : EReal) := by funext n d; exact ha n d
  obtain rfl : W2 = fun d e => (w2 d e : EReal) := by funext d e; exact hw2 d e
  obtain rfl : W3 = fun e => (w3 e : EReal) := by funext e; exact hw3 e
  unfold headK headR
  refine congrArg Ideal.logistic ?_
  -- the per-node image under W2 is real
  have hin : ∀ e : Fin 10, (fun n : Fin 100000 => ∑ d : Fin 10, (a n d : EReal) * (w2 d e : EReal))
      = fun n : Fin 100000 => ((∑ d : Fin 10, a n d * w2 d e : ℝ) : EReal) := by
    intro e
    funext n
    rw [coe_sum]
    refine Finset.sum_congr rfl (fun d _ => ?_)
    rw [EReal.coe_mul]
  -- a row of the product matrix is real
  have hW : ∀ d : Fin 10, (∑ e : Fin 10, (w2 d e : EReal) * (w3 e : EReal))
      = ((∑ e : Fin 10, w2 d e * w3 e : ℝ) : EReal) := by
    intro d
    rw [coe_sum]
    refine Finset.sum_congr rfl (fun e _ => ?_)
    rw [EReal.coe_mul]
  have hc := max_countR_ne_zero gid g
  -- both arguments are coercions of real numbers
  have hL : (∑ d : Fin 10, Ideal.div (pooled (fun n => (a n d : EReal)) gid g) (max (count gid g) 1)
        * (∑ e : Fin 10, (w2 d e : EReal) * (w3 e : EReal)))
      = ((∑ d : Fin 10, (∑ n : Fin 100000, if InGraph gid g n then a n d else 0)
          * (1 / max (countR gid g) 1) * (∑ e : Fin 10, w2 d e * w3 e) : ℝ) : EReal) := by
    rw [coe_sum]
    refine Finset.sum_congr rfl (fun d _ => ?_)
    rw [pooled_coe, max_count_coe, Ideal.div_coe hc, hW d, ← EReal.coe_mul, ← EReal.coe_mul]
  have hR : (∑ e : Fin 10, Ideal.div (pooled (fun n => ∑ d : Fin 10, (a n d : EReal) * (w2 d e : EReal)) gid g)
        (max (count gid g) 1) * (w3 e : EReal))
      = ((∑ e : Fin 10, (∑ n : Fin 100000, if InGraph gid g n then ∑ d : Fin 10, a n d * w2 d e else 0)
          * (1 / max (countR gid g) 1) * w3 e : ℝ) : EReal) := by
    rw [coe_sum]
    refine Finset.sum_congr rfl (fun e _ => ?_)
    rw [hin e, pooled_coe, max_count_coe, Ideal.div_coe hc, ← EReal.coe_mul, ← EReal.coe_mul]
  rw [hL, hR, EReal.coe_eq_coe_iff]
  -- the identity over the reals
  simp only [pooledR_linear]
  exact mean_assoc _ w2 w3 _

end Cert.PoolSpec

end
-- ==== Proof.KernelValue.lean ====
/-
  The kernel program's result, graph by graph, is `PoolSpec.headK` of its second aggregate.

  The second launch leaves, at graph `g`, the logistic function of the sum over the ten features of (the padded
  aggregate summed over the padded rows whose id word is `g`, divided by the larger of their number and one) times
  the projection column. The padded aggregate is the aggregate on the first 100000 rows and zero on the 2400 pad rows;
  the padded id row is the graph ids on the first 100000 positions and 64 on the pad positions, and 64 is no graph
  (`g < 64`), so a pad row belongs to no graph and the sums over 102400 rows are the sums over the 100000 nodes. The
  projection column is `W2 · W3`, the plain sum over the contracted ten.
-/
import proofs.«431282_j74801150427782_3_alg».proof.Proof.Run
import proofs.«431282_j74801150427782_3_alg».proof.Proof.HostValue
import proofs.«431282_j74801150427782_3_alg».proof.Proof.PoolValue
import proofs.«431282_j74801150427782_3_alg».proof.Proof.PoolSpec
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Kv

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The program's result array after the run, at its literal type. -/
abbrev out (c : Dev nD) : Vec Ideal S64x1 .f32 := Rn.plOut (F := Ideal) m c

/-- The second aggregate as the second launch's host side computes it from the first launch's product. -/
abbrev aggK (c : Dev nD) : Vec Ideal S100000x10 .f32 := Hv.agg m (Rn.outs1 m) c

/-! ### The padded arrays at an index -/

/-- A padded aggregate row below 100000 is the aggregate's row. -/
theorem aggP_lo (outs : Gen.Outs (F := Ideal)) (c : Dev nD) (j : Fin 102400) (h : j.val < 100000) (d : Fin 10) :
    (Hv.aggP m outs c (ix2 j d) : EReal) = Hv.agg m outs c (ix2 (⟨j.val, h⟩ : Fin 100000) d) := by
  rw [Hv.aggP_eq]
  exact pad_apply_of_inside _ _ _ _ _ _ _ (ix2 j d) (ix2 (⟨j.val, h⟩ : Fin 100000) d) (by
    intro a
    match a with
    | ⟨0, _⟩ => show j.val = 0 + j.val * (0 + 1); omega
    | ⟨1, _⟩ => show d.val = 0 + d.val * (0 + 1); omega)

/-- A padded aggregate row from 100000 on is zero. -/
theorem aggP_hi (outs : Gen.Outs (F := Ideal)) (c : Dev nD) (j : Fin 102400) (h : ¬ j.val < 100000) (d : Fin 10) :
    (Hv.aggP m outs c (ix2 j d) : EReal) = 0 := by
  rw [Hv.aggP_eq]
  rw [pad_apply_of_not_inside _ _ _ _ _ _ _ (ix2 j d) (0 : Fin 2) (by
    intro hin
    have e : (j.val - 0) / (0 + 1) < 100000 := hin.2.2
    omega)]
  show (((0#32 : BitVec 32).toInt : ℝ) : EReal) = 0
  simp

/-- A padded id below 100000 is the node's graph id. -/
theorem gidP_lo (outs : Gen.Outs (F := Ideal)) (c : Dev nD) (j : Fin 102400) (h : j.val < 100000) :
    Hv.gidP m outs c (ix2 (0 : Fin 1) j) = Hv.gidA m c (ix1 (⟨j.val, h⟩ : Fin 100000)) := by
  rw [Hv.gidP_eq]
  rw [shapeCast_apply _ _ (ix2 (0 : Fin 1) j) (ix1 j) (by
    rw [Shape.rowMajor_val_one, Shape.rowMajor_val_two]
    show j.val = 0 * 102400 + j.val
    omega)]
  exact pad_apply_of_inside _ _ _ _ _ _ _ (ix1 j) (ix1 (⟨j.val, h⟩ : Fin 100000)) (by
    intro a
    match a with
    | ⟨0, _⟩ => show j.val = 0 + j.val * (0 + 1); omega)

/-- A padded id from 100000 on is the word 64. -/
theorem gidP_hi (outs : Gen.Outs (F := Ideal)) (c : Dev nD) (j : Fin 102400) (h : ¬ j.val < 100000) :
    Hv.gidP m outs c (ix2 (0 : Fin 1) j) = 64#32 := by
  rw [Hv.gidP_eq]
  rw [shapeCast_apply _ _ (ix2 (0 : Fin 1) j) (ix1 j) (by
    rw [Shape.rowMajor_val_one, Shape.rowMajor_val_two]
    show j.val = 0 * 102400 + j.val
    omega)]
  rw [pad_apply_of_not_inside _ _ _ _ _ _ _ (ix1 j) (0 : Fin 1) (by
    intro hin
    have e : (j.val - 0) / (0 + 1) < 100000 := hin.2.2
    omega)]
  rfl

/-! ### Graph membership of a padded row -/

/-- A padded row below 100000 is on graph `g` exactly when its node is. -/
theorem row_lo (c : Dev nD) (g : Fin 64) (j : Fin 102400) (h : j.val < 100000) :
    PlV.Row (Rn.Vin1 m) c g j ↔ Cert.PoolSpec.InGraph (Hv.gidA m c) g (⟨j.val, h⟩ : Fin 100000) := by
  unfold PlV.Row Cert.PoolSpec.InGraph
  show (Hv.gidP m (Rn.outs1 m) c (ix2 (0 : Fin 1) j)).toInt = _ ↔ _
  rw [gidP_lo m _ c j h]

/-- A padded row from 100000 on is on no graph: its id word is 64, and `g < 64`. -/
theorem row_hi (c : Dev nD) (g : Fin 64) (j : Fin 102400) (h : ¬ j.val < 100000) : ¬ PlV.Row (Rn.Vin1 m) c g j := by
  unfold PlV.Row
  show ¬ (Hv.gidP m (Rn.outs1 m) c (ix2 (0 : Fin 1) j)).toInt = _
  rw [gidP_hi m _ c j h]
  have e : (64#32 : BitVec 32).toInt = 64 := by decide
  rw [e]
  have := g.isLt
  omega

/-! ### A sum over the padded rows whose pad terms vanish -/

/-- Node `n` as a padded row. -/
def nodeEmb : Fin 100000 ↪ Fin 102400 :=
  ⟨fun n => ⟨n.val, by have := n.isLt; omega⟩, fun a b h => Fin.ext (by have e := congrArg Fin.val h; exact e)⟩

/-- A sum over the 102400 padded rows whose terms vanish from row 100000 on is the sum over the 100000 nodes. -/
theorem sum_pad {M : Type*} [AddCommMonoid M] (G : Fin 102400 → M) (hz : ∀ j : Fin 102400, ¬ j.val < 100000 → G j = 0) :
    ∑ j, G j = ∑ n : Fin 100000, G (nodeEmb n) := by
  rw [← Finset.sum_map Finset.univ nodeEmb G]
  symm
  refine Finset.sum_subset (Finset.subset_univ _) fun j _ hj => hz j fun hlt => hj ?_
  rw [Finset.mem_map]
  exact ⟨⟨j.val, hlt⟩, Finset.mem_univ _, Fin.ext rfl⟩

/-! ### The projection column is the product `W2 · W3`, a plain sum over the contracted ten -/

theorem lhs_proj_0 (i : S10x1.Idx) (q : dot_S10x10_S10x1_S10x1_1_0_0_1_n_n.contr.Idx) :
    (dot_S10x10_S10x1_S10x1_1_0_0_1_n_n.lhsIdx i q 0).val = (i 0).val := by
  unfold DotDims.lhsIdx
  rw [dif_neg (show ¬(0 : Fin S10x10.rank) ∈ dot_S10x10_S10x1_S10x1_1_0_0_1_n_n.lhsBatch by decide), dif_pos (show (0 : Fin S10x10.rank) ∈ dot_S10x10_S10x1_S10x1_1_0_0_1_n_n.lhsNonContracting by decide)]
  rfl
theorem lhs_proj_1 (i : S10x1.Idx) (q : dot_S10x10_S10x1_S10x1_1_0_0_1_n_n.contr.Idx) :
    (dot_S10x10_S10x1_S10x1_1_0_0_1_n_n.lhsIdx i q 1).val = (q ⟨0, by decide⟩).val :=
  dot_S10x10_S10x1_S10x1_1_0_0_1_n_n.lhsIdx_val_of_single rfl i q
theorem rhs_proj_0 (i : S10x1.Idx) (q : dot_S10x10_S10x1_S10x1_1_0_0_1_n_n.contr.Idx) :
    (dot_S10x10_S10x1_S10x1_1_0_0_1_n_n.rhsIdx i q 0).val = (q ⟨0, by decide⟩).val :=
  dot_S10x10_S10x1_S10x1_1_0_0_1_n_n.rhsIdx_val_of_single rfl i q
theorem rhs_proj_1 (i : S10x1.Idx) (q : dot_S10x10_S10x1_S10x1_1_0_0_1_n_n.contr.Idx) :
    (dot_S10x10_S10x1_S10x1_1_0_0_1_n_n.rhsIdx i q 1).val = (i 1).val := by
  unfold DotDims.rhsIdx
  rw [dif_neg (show ¬(1 : Fin S10x1.rank) ∈ dot_S10x10_S10x1_S10x1_1_0_0_1_n_n.rhsBatch by decide), dif_pos (show (1 : Fin S10x1.rank) ∈ dot_S10x10_S10x1_S10x1_1_0_0_1_n_n.rhsNonContracting by decide)]
  rfl

/-- Entry `d` of the projection column is `Σ_e W2 d e · W3 e`. -/
theorem proj_apply (outs : Gen.Outs (F := Ideal)) (c : Dev nD) (d : Fin 10) :
    (Hv.proj m outs c (ix2 d (0 : Fin 1)) : EReal)
      = ∑ e : Fin 10, (Hv.w2 m c (ix2 d e) : EReal) * (Hv.w3 m c (ix2 e (0 : Fin 1)) : EReal) := by
  rw [Hv.proj_eq]
  simp only [Host.dotGeneral]
  rw [Ideal.dotGeneral_apply, ← Equiv.sum_comp (ValueIdx.contrEquiv1 dot_S10x10_S10x1_S10x1_1_0_0_1_n_n 10 rfl rfl).symm]
  refine Finset.sum_congr rfl fun k _ => ?_
  have hk := ValueIdx.contrEquiv1_symm_val dot_S10x10_S10x1_S10x1_1_0_0_1_n_n 10 rfl rfl k
  have el : dot_S10x10_S10x1_S10x1_1_0_0_1_n_n.lhsIdx (ix2 d (0 : Fin 1)) ((ValueIdx.contrEquiv1 dot_S10x10_S10x1_S10x1_1_0_0_1_n_n 10 rfl rfl).symm k) = ix2 d k := funext fun a => Fin.ext (by
    match a with
    | ⟨0, _⟩ => exact lhs_proj_0 _ _
    | ⟨1, _⟩ => exact (lhs_proj_1 _ _).trans hk)
  have er : dot_S10x10_S10x1_S10x1_1_0_0_1_n_n.rhsIdx (ix2 d (0 : Fin 1)) ((ValueIdx.contrEquiv1 dot_S10x10_S10x1_S10x1_1_0_0_1_n_n 10 rfl rfl).symm k) = ix2 k (0 : Fin 1) := funext fun a => Fin.ext (by
    match a with
    | ⟨0, _⟩ => exact (rhs_proj_0 _ _).trans hk
    | ⟨1, _⟩ => exact rhs_proj_1 _ _)
  rw [el, er]

/-- Row `g` of the program's result is the kernel arrangement of the pooled head over its second aggregate. -/
theorem kernel_row (c : Dev nD) (g : Fin 64) :
    out m c (ix2 g (0 : Fin 1))
      = Cert.PoolSpec.headK (fun n d => (aggK m c (ix2 n d) : EReal)) (fun d e => (Hv.w2 m c (ix2 d e) : EReal))
          (fun e => (Hv.w3 m c (ix2 e (0 : Fin 1)) : EReal)) (Hv.gidA m c) g := by
  show PlV.res (Rn.Vin1 m) c (ix2 g (0 : Fin 1)) = _
  rw [PlV.result]
  unfold Cert.PoolSpec.headK Cert.PoolSpec.count Cert.PoolSpec.pooled
  refine congrArg Ideal.logistic (Finset.sum_congr rfl fun d _ => ?_)
  have hS : (∑ j : Fin 102400, if PlV.Row (Rn.Vin1 m) c g j then (PlV.aggP (Rn.Vin1 m) c (ix2 j d) : EReal) else 0)
      = ∑ n : Fin 100000, if Cert.PoolSpec.InGraph (Hv.gidA m c) g n then (aggK m c (ix2 n d) : EReal) else 0 := by
    rw [sum_pad _ (fun j hj => if_neg (row_hi m c g j hj))]
    refine Finset.sum_congr rfl fun n _ => ?_
    have hn : (nodeEmb n).val < 100000 := n.isLt
    by_cases hg : Cert.PoolSpec.InGraph (Hv.gidA m c) g n
    · rw [if_pos hg, if_pos ((row_lo m c g (nodeEmb n) hn).mpr hg)]
      exact aggP_lo m (Rn.outs1 m) c (nodeEmb n) hn d
    · rw [if_neg hg, if_neg (fun hr => hg ((row_lo m c g (nodeEmb n) hn).mp hr))]
  have hK : (∑ j : Fin 102400, if PlV.Row (Rn.Vin1 m) c g j then (1 : EReal) else 0)
      = ∑ n : Fin 100000, if Cert.PoolSpec.InGraph (Hv.gidA m c) g n then (1 : EReal) else 0 := by
    rw [sum_pad _ (fun j hj => if_neg (row_hi m c g j hj))]
    refine Finset.sum_congr rfl fun n _ => ?_
    have hn : (nodeEmb n).val < 100000 := n.isLt
    by_cases hg : Cert.PoolSpec.InGraph (Hv.gidA m c) g n
    · rw [if_pos hg, if_pos ((row_lo m c g (nodeEmb n) hn).mpr hg)]
    · rw [if_neg hg, if_neg (fun hr => hg ((row_lo m c g (nodeEmb n) hn).mp hr))]
  rw [hS, hK]
  exact congrArg _ (proj_apply m (Rn.outs1 m) c d)

end Cert.KernelIdeal.Kv

end
-- ==== Proof.MmValue.lean ====
/-
  What the first launch leaves in its result array: the matrix product of the features and the weights.

  Point `t` of ten writes back the block of rows `[10000 t, 10000 (t+1))`; the blocks tile the 100000 rows, so
  every row is written exactly once, by the point `row / 10000`. Within a block the body's store is the matrix
  product of the feature block and the whole weight matrix into a zero accumulator, which over the extended reals
  is the plain sum over the 128 contracted positions (a change of float format is the identity there).
-/
import proofs.«431282_j74801150427782_3_alg».proof.Proof.MmBody
import Idealize.ShloMosaic.Lib.Pipeline.Value
import Idealize.ShloMosaic.Lib.ValueIdx
import Idealize.ShloMosaic.PureOps.Ideal.Laws

set_option maxRecDepth 16384

noncomputable section

namespace Cert.KernelIdeal.MmV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The features, the weights and the product array as the launch finds and leaves them, at their literal types. -/
abbrev feat (c : Dev nD) : Vec Ideal S100000x128 .f32 := V c main_arg0
abbrev wts (c : Dev nD) : Vec Ideal S128x10 .f32 := V c main_arg1
abbrev prod (c : Dev nD) : Vec Ideal S100000x10 .f32 := (Mm.dat (F := Ideal) V c).arrAt 2 cfg0.N

/-! ## The block product at an entry -/

/-- The zero offsets, as the constant function. -/
theorem hz : (![0, 0] : Fin 2 → Nat) = fun _ => 0 := funext fun a => by fin_cases a <;> rfl

/-- The operand positions of the block product: output entry `(r, c)` at contracted position `k` reads the left
    operand at `(r, k)` and the right operand at `(k, c)`. -/
theorem lhs_0 (i : S10000x10.Idx) (q : dot_S10000x128_S128x10_S10000x10_1_0_0_1_n_n.contr.Idx) :
    (dot_S10000x128_S128x10_S10000x10_1_0_0_1_n_n.lhsIdx i q 0).val = (i 0).val := by
  unfold DotDims.lhsIdx
  rw [dif_neg (show ¬(0 : Fin S10000x128.rank) ∈ dot_S10000x128_S128x10_S10000x10_1_0_0_1_n_n.lhsBatch by decide), dif_pos (show (0 : Fin S10000x128.rank) ∈ dot_S10000x128_S128x10_S10000x10_1_0_0_1_n_n.lhsNonContracting by decide)]
  rfl
theorem lhs_1 (i : S10000x10.Idx) (q : dot_S10000x128_S128x10_S10000x10_1_0_0_1_n_n.contr.Idx) :
    (dot_S10000x128_S128x10_S10000x10_1_0_0_1_n_n.lhsIdx i q 1).val = (q ⟨0, by decide⟩).val :=
  dot_S10000x128_S128x10_S10000x10_1_0_0_1_n_n.lhsIdx_val_of_single rfl i q
theorem rhs_0 (i : S10000x10.Idx) (q : dot_S10000x128_S128x10_S10000x10_1_0_0_1_n_n.contr.Idx) :
    (dot_S10000x128_S128x10_S10000x10_1_0_0_1_n_n.rhsIdx i q 0).val = (q ⟨0, by decide⟩).val :=
  dot_S10000x128_S128x10_S10000x10_1_0_0_1_n_n.rhsIdx_val_of_single rfl i q
theorem rhs_1 (i : S10000x10.Idx) (q : dot_S10000x128_S128x10_S10000x10_1_0_0_1_n_n.contr.Idx) :
    (dot_S10000x128_S128x10_S10000x10_1_0_0_1_n_n.rhsIdx i q 1).val = (i 1).val := by
  unfold DotDims.rhsIdx
  rw [dif_neg (show ¬(1 : Fin S128x10.rank) ∈ dot_S10000x128_S128x10_S10000x10_1_0_0_1_n_n.rhsBatch by decide), dif_pos (show (1 : Fin S128x10.rank) ∈ dot_S10000x128_S128x10_S10000x10_1_0_0_1_n_n.rhsNonContracting by decide)]
  rfl

/-- The body's stored value at row `p` and column `q` of the block: the sum over the 128 contracted positions of
    the products of the two loaded blocks' entries. -/
theorem pay_apply (x0 : Vec Ideal S10000x128 .f32) (x1 : Vec Ideal S128x10 .f32) (p : Fin 10000) (q : Fin 10) :
    (k0_pay1 (F := Ideal) x0 x1 (ix2 p q) : EReal) = ∑ k : Fin 128, (x0 (ix2 p k) : EReal) * (x1 (ix2 k q) : EReal) := by
  unfold k0_pay1
  simp only [matmul]
  rw [Ideal.matmul_constant_zero_apply, ← Equiv.sum_comp (contrEquiv1 dot_S10000x128_S128x10_S10000x10_1_0_0_1_n_n 128 rfl rfl).symm]
  refine Finset.sum_congr rfl fun k _ => ?_
  have hk := contrEquiv1_symm_val dot_S10000x128_S128x10_S10000x10_1_0_0_1_n_n 128 rfl rfl k
  have el : dot_S10000x128_S128x10_S10000x10_1_0_0_1_n_n.lhsIdx (ix2 p q) ((contrEquiv1 dot_S10000x128_S128x10_S10000x10_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x10_S10000x10_1_0_0_1_n_n.rhsIdx (ix2 p q) ((contrEquiv1 dot_S10000x128_S128x10_S10000x10_1_0_0_1_n_n 128 rfl rfl).symm k) = ix2 k q := funext fun a => Fin.ext (by
    match a with
    | ⟨0, _⟩ => exact (rhs_0 _ _).trans hk
    | ⟨1, _⟩ => exact rhs_1 _ _)
  rw [truncf_apply, truncf_apply, el, er]

/-- What the body leaves in the output block, at row `p` and column `q`. -/
theorem outBlk_apply (x0 : Vec Ideal S10000x128 .f32) (x1 : Vec Ideal S128x10 .f32) (p : Fin 10000) (q : Fin 10) :
    (Mm.outBlk (F := Ideal) x0 x1 (ix2 p q) : EReal) = ∑ k : Fin 128, (x0 (ix2 p k) : EReal) * (x1 (ix2 k q) : EReal) := by
  unfold Mm.outBlk
  rw [View.canon_unit_zero hz]
  simp only [View.ld_unit_zero (S := S10000x128) hz, View.ld_unit_zero (S := S128x10) hz]
  exact pay_apply x0 x1 p q

/-- The printed index maps, decided over the ten points: the feature block and the product block move down the rows
    with the point, the weight block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The input blocks at a point -/

/-- The feature block at point `t` is rows `10000 t … 10000 t + 9999` of the features. -/
theorem iblk0_apply (c : Dev nD) (t : Fin cfg0.N) (p : Fin 10000) (k : Fin 128) (n : Fin 100000)
    (hn : n.val = 10000 * t.val + p.val) :
    (Mm.iblk V c 0 t : Vec Ideal S10000x128 .f32) (ix2 p k) = feat V c (ix2 n k) := by
  obtain ⟨e0, e1, -⟩ := idx_facts t
  unfold Mm.iblk
  rw [View.read_apply]
  show V c main_arg0 _ = V c main_arg0 _
  congr 1
  funext a
  apply Fin.ext
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- The weight block at every point is the whole weight matrix. -/
theorem iblk1_apply (c : Dev nD) (t : Fin cfg0.N) (k : Fin 128) (q : Fin 10) :
    (Mm.iblk V c 1 t : Vec Ideal S128x10 .f32) (ix2 k q) = wts V c (ix2 k q) := by
  obtain ⟨-, -, e2, e3, -⟩ := idx_facts t
  unfold Mm.iblk
  rw [View.read_apply]
  show V c main_arg1 _ = V c main_arg1 _
  congr 1
  funext a
  apply Fin.ext
  match a with
  | ⟨0, _⟩ => show win0_1.index t (0 : Fin 2) * 128 + 1 * k.val = k.val; rw [e2]; omega
  | ⟨1, _⟩ => show win0_1.index t (1 : Fin 2) * 10 + 1 * q.val = q.val; rw [e3]; omega

/-! ## From the blocks to the array -/

/-- The whole product array: at row `n` and column `d` the sum over the contracted positions. -/
def G (c : Dev nD) : Vec Ideal S100000x10 .f32 := fun i =>
  ∑ k : Fin 128, (feat V c (ix2 (⟨(i 0).val, idx2_lt0 i⟩ : Fin 100000) k) : EReal) * (wts V c (ix2 k (⟨(i 1).val, idx2_lt1 i⟩ : Fin 10)) : EReal)

theorem G_apply (c : Dev nD) (n : Fin 100000) (d : Fin 10) :
    G V c (ix2 n d) = ∑ k : Fin 128, (feat V c (ix2 n k) : EReal) * (wts V c (ix2 k d) : EReal) := rfl

/-- What the body leaves at point `t`, at row `p` and column `q` of the block, is the product array's entry at
    row `10000 t + p` and column `q`. -/
theorem after_apply (c : Dev nD) (t : Fin cfg0.N) (p : Fin 10000) (q : Fin 10) (n : Fin 100000)
    (hn : n.val = 10000 * t.val + p.val) :
    (Mm.outBlk (F := Ideal) (Mm.iblk V c 0 t) (Mm.iblk V c 1 t) (ix2 p q) : EReal) = G V c (ix2 n q) := by
  rw [G_apply]
  refine (outBlk_apply _ _ p q).trans (Finset.sum_congr rfl fun k _ => ?_)
  rw [iblk0_apply V c t p k n hn, iblk1_apply V c t k q]

/-- Where the product block's entry `(p, q)` at point `t` sits in the array: row `10000 t + p`, column `q`. -/
theorem emb2 (t : Fin cfg0.N) (p : Fin 10000) (q : Fin 10) (n : Fin 100000) (hn : n.val = 10000 * t.val + p.val) :
    ((cfg0.win 2).blk t).view.emb (ix2 p q) = ix2 n q := by
  obtain ⟨-, -, -, -, e4, e5⟩ := idx_facts t
  funext a
  apply Fin.ext
  match a with
  | ⟨0, _⟩ => show win0_2.index t (0 : Fin 2) * 10000 + 1 * p.val = n.val; rw [e4, hn]; omega
  | ⟨1, _⟩ => show win0_2.index t (1 : Fin 2) * 10 + 1 * q.val = q.val; rw [e5]; omega

/-- The same at any entry of the block: what the body leaves there is the product array's entry where the block's entry sits. -/
theorem flushed_pt (c : Dev nD) (t : Fin cfg0.N) (j : S10000x10.Idx) :
    (Mm.outBlk (F := Ideal) (Mm.iblk V c 0 t) (Mm.iblk V c 1 t) j : EReal) = G V c (((cfg0.win 2).blk t).view.emb j) := by
  obtain ⟨p, q, rfl⟩ : ∃ (p : Fin 10000) (q : Fin 10), j = ix2 p q := ⟨j 0, j 1, eq_ix2 j⟩
  have ht : t.val < 10 := Nat.lt_of_lt_of_eq t.isLt N_0
  have hn : 10000 * t.val + p.val < 100000 := by have := p.isLt; omega
  rw [emb2 t p q ⟨10000 * t.val + p.val, hn⟩ rfl]
  exact after_apply V c t p q _ rfl

/-- What point `t` writes back is block `t` of the product array. -/
theorem flushed_eq (c : Dev nD) (t : Fin cfg0.N) :
    (Mm.dat V c).flushed 2 t = ((cfg0.win 2).blk t).view.read (Elt Ideal) (G V c) := by
  show (cfg0.win 2).cut (grid0.coords t) ((Mm.dat V c).after 2 t) = _
  rw [Mm.after_2]
  funext j
  exact flushed_pt V c t j

/-- An entry of the array is in point `t`'s block iff each coordinate is in the block's range on its axis. -/
theorem mem_blk (t : Fin cfg0.N) (i : S100000x10.Idx) :
    i ∈ ((cfg0.win 2).blk t).view.set ↔ ∀ a : Fin 2, win0_2.index t a * S10000x10.size a ≤ (i a).val ∧ (i a).val < win0_2.index t a * S10000x10.size a + S10000x10.size a := by
  show i ∈ ((View.whole main_v0).slice (win0_2.rect t)).set ↔ _
  rw [View.set_slice_whole, Rect.mem_set_unit]
  exact Iff.rfl

/-- The ten blocks tile the rows: row `r` is in the block of point `r / 10000`. -/
theorem cover (i : S100000x10.Idx) :
    ∃ t : Fin cfg0.N, (cfg0.win 2).flush t = true ∧ i ∈ ((cfg0.win 2).blk t).view.set := by
  have hi0 : (i 0).val < 100000 := (i 0).isLt
  have hi1 : (i 1).val < 10 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 10 ≤ (i 1).val ∧ (i 1).val < win0_2.index t (1 : Fin 2) * 10 + 10; rw [e5]; omega

/-- So the result array ends holding the product array. -/
theorem final (c : Dev nD) : prod V c = G V c :=
  (Mm.dat V c).arrAt_eq_of_cover 2 (G V c) (fun t _ => flushed_eq V c t) cover

/-- After the ten points the result array holds, at row `n` and column `d`, the sum over `k` of feature `(n, k)`
    times weight `(k, d)`, the two argument arrays read as the launch found them. -/
theorem product (c : Dev nD) (n : Fin 100000) (d : Fin 10) :
    prod V c (ix2 n d) = ∑ k : Fin 128, (feat V c (ix2 n k) : EReal) * (wts V c (ix2 k d) : EReal) := by
  rw [final V c]
  exact G_apply V c n d

end Cert.KernelIdeal.MmV

end
-- ==== Proof.AggEq.lean ====
/-
  The kernel program's second aggregate is the reference's.

  The first launch's product is the reference's matrix product: each entry is the sum over the 128 contracted
  positions of feature times weight, on both sides. The host operations between the launches (gather by source id,
  scatter-add by destination id, clamp at zero, gather, scatter-add) are the reference's own, operation for operation,
  so equal products give equal aggregates.
-/
import proofs.«431282_j74801150427782_3_alg».proof.Proof.KernelValue
import proofs.«431282_j74801150427782_3_alg».proof.Proof.MmValue
import proofs.«431282_j74801150427782_3_alg».proof.Proof.Gen.ReferenceIdeal.Read

set_option maxRecDepth 16384

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)

/-- The kernel program's arguments on core `c`, at the reference's literal types. -/
abbrev a0 (c : Dev Cert.KernelIdeal.nD) : (⟨Cert.ReferenceIdeal.S100000x128, .f32⟩ : BufTy).Contents (Elt Ideal) := m ((c.tc : Thread Cert.KernelIdeal.nD Cert.KernelIdeal.τ).loc Cert.KernelIdeal.main_arg0)
abbrev a1 (c : Dev Cert.KernelIdeal.nD) : (⟨Cert.ReferenceIdeal.S128x10, .f32⟩ : BufTy).Contents (Elt Ideal) := m ((c.tc : Thread Cert.KernelIdeal.nD Cert.KernelIdeal.τ).loc Cert.KernelIdeal.main_arg1)
abbrev a2 (c : Dev Cert.KernelIdeal.nD) : (⟨Cert.ReferenceIdeal.S10x10, .f32⟩ : BufTy).Contents (Elt Ideal) := m ((c.tc : Thread Cert.KernelIdeal.nD Cert.KernelIdeal.τ).loc Cert.KernelIdeal.main_arg2)
abbrev a3 (c : Dev Cert.KernelIdeal.nD) : (⟨Cert.ReferenceIdeal.S10x1, .f32⟩ : BufTy).Contents (Elt Ideal) := m ((c.tc : Thread Cert.KernelIdeal.nD Cert.KernelIdeal.τ).loc Cert.KernelIdeal.main_arg3)
abbrev a4 (c : Dev Cert.KernelIdeal.nD) : (⟨Cert.ReferenceIdeal.S3200000, .i32⟩ : BufTy).Contents (Elt Ideal) := m ((c.tc : Thread Cert.KernelIdeal.nD Cert.KernelIdeal.τ).loc Cert.KernelIdeal.main_arg4)
abbrev a5 (c : Dev Cert.KernelIdeal.nD) : (⟨Cert.ReferenceIdeal.S3200000, .i32⟩ : BufTy).Contents (Elt Ideal) := m ((c.tc : Thread Cert.KernelIdeal.nD Cert.KernelIdeal.τ).loc Cert.KernelIdeal.main_arg5)
abbrev a6 (c : Dev Cert.KernelIdeal.nD) : (⟨Cert.ReferenceIdeal.S100000, .i32⟩ : BufTy).Contents (Elt Ideal) := m ((c.tc : Thread Cert.KernelIdeal.nD Cert.KernelIdeal.τ).loc Cert.KernelIdeal.main_arg6)

/-! ## The two programs' dimension records and constant arrays are the same -/

open Cert.ReferenceIdeal.Read

/-- The scatter's dimension numbers are the same record in the two programs. -/
theorem sc_eq : Cert.KernelIdeal.scatter_S100000x10_S3200000x1_S3200000x10_1_0_0_1
    = Cert.ReferenceIdeal.scatter_S100000x10_S3200000x1_S3200000x10_1_0_0_1 := rfl

/-- The gather's dimension numbers are the same record in the two programs. -/
theorem ga_eq : Cert.KernelIdeal.gather_S100000x10_S3200000x1_S3200000x10_1_0_n_n_0_1_110
    = Cert.ReferenceIdeal.gather_S100000x10_S3200000x1_S3200000x10_1_0_n_n_0_1_110 := rfl

/-- A scatter-add of equal operands at equal dimension numbers. -/
theorem scatterAdd_congr {s si u : Shape} {w : Nat} {d d' : ScatterDims s si u} (hd : d = d')
    {x x' : FVec Ideal s .f32} (hx : x = x') {idx idx' : IVec si w} (hi : idx = idx')
    {upd upd' : FVec Ideal u .f32} (hu : upd = upd') :
    Host.scatterAdd (F := Ideal) d x idx upd = Host.scatterAdd (F := Ideal) d' x' idx' upd' := by
  subst hd; subst hx; subst hi; subst hu; rfl

/-- A gather of equal operands at equal dimension numbers. -/
theorem gather_congr {s si t : Shape} {w : Nat} {α : Type} {d d' : GatherDims s si t} (hd : d = d')
    {x x' : s.Idx → α} (hx : x = x') {idx idx' : IVec si w} (hi : idx = idx') :
    Host.gather d x idx = Host.gather d' x' idx' := by
  subst hd; subst hx; subst hi; rfl

/-- One neighbourhood sum as the reference writes it: gather the rows of `h` by the wrapped source ids, add them
    up at the destination rows, starting from zeros. -/
def refAgg1 (h : (⟨Cert.ReferenceIdeal.S100000x10, .f32⟩ : BufTy).Contents (Elt Ideal))
    (x4 x5 : (⟨Cert.ReferenceIdeal.S3200000, .i32⟩ : BufTy).Contents (Elt Ideal)) :
    (⟨Cert.ReferenceIdeal.S100000x10, .f32⟩ : BufTy).Contents (Elt Ideal) :=
  Host.scatterAdd (F := Ideal) (φ := .f32) Cert.ReferenceIdeal.scatter_S100000x10_S3200000x1_S3200000x10_1_0_0_1 (val_main_v8 (F := Ideal)) (val_main_v9 (F := Ideal) x5)
    (Host.gather Cert.ReferenceIdeal.gather_S100000x10_S3200000x1_S3200000x10_1_0_n_n_0_1_110 h (val_main_v6 (F := Ideal) x4))

/-- The kernel program's neighbourhood sum is the reference's, operand for operand. -/
theorem agg1_eq (h : Vec Ideal Cert.KernelIdeal.S100000x10 .f32) (src dst : Vec Ideal Cert.KernelIdeal.S3200000 .i32) :
    Cert.KernelIdeal.Hv.agg1 h src dst = refAgg1 h src dst := by
  unfold Cert.KernelIdeal.Hv.agg1 refAgg1
  refine scatterAdd_congr sc_eq ?_ ?_ (gather_congr ga_eq rfl ?_)
  · unfold val_main_v8 val_main_cst
    rfl
  · unfold val_main_v9
    rfl
  · unfold val_main_v6 val_main_v5 val_main_v2 val_main_v4 val_main_v1 val_main_v3 val_main_c val_main_c_0
    rfl

/-! ## The reference's chain as two neighbourhood sums around the clamp -/

/-- The reference's second zero array, second destination array and second wrapped source array are its first. -/
theorem v19_eq : val_main_v19 (F := Ideal) = val_main_v8 (F := Ideal) := by
  unfold val_main_v19 val_main_cst_3 val_main_v8 val_main_cst
  rfl
theorem v20_eq (x5 : (⟨Cert.ReferenceIdeal.S3200000, .i32⟩ : BufTy).Contents (Elt Ideal)) :
    val_main_v20 (F := Ideal) x5 = val_main_v9 (F := Ideal) x5 := by
  unfold val_main_v20 val_main_v9
  rfl
theorem v17_eq (x4 : (⟨Cert.ReferenceIdeal.S3200000, .i32⟩ : BufTy).Contents (Elt Ideal)) :
    val_main_v17 (F := Ideal) x4 = val_main_v6 (F := Ideal) x4 := by
  unfold val_main_v17 val_main_v16 val_main_v13 val_main_v15 val_main_v12 val_main_v14 val_main_c_1 val_main_c_2
    val_main_v6 val_main_v5 val_main_v2 val_main_v4 val_main_v1 val_main_v3 val_main_c val_main_c_0
  rfl

/-- The reference's first aggregate is one neighbourhood sum of its product. -/
theorem v10_eq (x0 : (⟨Cert.ReferenceIdeal.S100000x128, .f32⟩ : BufTy).Contents (Elt Ideal)) (x1 : (⟨Cert.ReferenceIdeal.S128x10, .f32⟩ : BufTy).Contents (Elt Ideal))
    (x4 x5 : (⟨Cert.ReferenceIdeal.S3200000, .i32⟩ : BufTy).Contents (Elt Ideal)) :
    val_main_v10 (F := Ideal) x0 x1 x4 x5 = refAgg1 (val_main_v0 (F := Ideal) x0 x1) x4 x5 := by
  unfold val_main_v10 val_main_v7 refAgg1
  rfl

/-- The reference's second aggregate is one neighbourhood sum of its clamped first aggregate. -/
theorem v21_eq (x0 : (⟨Cert.ReferenceIdeal.S100000x128, .f32⟩ : BufTy).Contents (Elt Ideal)) (x1 : (⟨Cert.ReferenceIdeal.S128x10, .f32⟩ : BufTy).Contents (Elt Ideal))
    (x4 x5 : (⟨Cert.ReferenceIdeal.S3200000, .i32⟩ : BufTy).Contents (Elt Ideal)) :
    val_main_v21 (F := Ideal) x0 x1 x4 x5 = refAgg1 (val_main_v11 (F := Ideal) x0 x1 x4 x5) x4 x5 := by
  unfold val_main_v21 val_main_v18 refAgg1
  rw [v19_eq, v20_eq, v17_eq]

/-- The whole chain on the reference's side, over its product. -/
theorem ref_chain (x0 : (⟨Cert.ReferenceIdeal.S100000x128, .f32⟩ : BufTy).Contents (Elt Ideal)) (x1 : (⟨Cert.ReferenceIdeal.S128x10, .f32⟩ : BufTy).Contents (Elt Ideal))
    (x4 x5 : (⟨Cert.ReferenceIdeal.S3200000, .i32⟩ : BufTy).Contents (Elt Ideal)) :
    val_main_v21 (F := Ideal) x0 x1 x4 x5
      = refAgg1 (maximumf (F := Ideal) (φ := .f32) (refAgg1 (val_main_v0 (F := Ideal) x0 x1) x4 x5) (val_main_call0_v0 (F := Ideal))) x4 x5 := by
  rw [v21_eq]
  unfold val_main_v11
  rw [v10_eq]

/-- The clamp's zero array is the same in the two programs. -/
theorem call0_eq : broadcastInDim Cert.KernelIdeal.S100000x10 ![] Cert.KernelIdeal.Gen.bcast_S_S100000x10 (constant (F := Ideal) Cert.KernelIdeal.S_ .f32 0x00000000#32)
    = val_main_call0_v0 (F := Ideal) := by
  unfold val_main_call0_v0 val_main_call0_cst
  rfl

/-- The whole chain on the kernel program's side, over any product array, is the reference's. -/
theorem aggOf_ref (h : Vec Ideal Cert.KernelIdeal.S100000x10 .f32) (x4 x5 : Vec Ideal Cert.KernelIdeal.S3200000 .i32) :
    Cert.KernelIdeal.Hv.aggOf h x4 x5
      = refAgg1 (maximumf (F := Ideal) (φ := .f32) (refAgg1 h x4 x5) (val_main_call0_v0 (F := Ideal))) x4 x5 := by
  rw [Cert.KernelIdeal.Hv.aggOf_eq, agg1_eq, agg1_eq, call0_eq]

/-! ## The products agree -/

/-- The first launch's product array is the reference's matrix product of the same arguments. -/
theorem prod_eq (c : Dev Cert.KernelIdeal.nD) :
    (Cert.KernelIdeal.Rn.mmOut m c : (⟨Cert.ReferenceIdeal.S100000x10, .f32⟩ : BufTy).Contents (Elt Ideal))
      = val_main_v0 (F := Ideal) (a0 m c) (a1 m c) := by
  funext j
  obtain ⟨n, d, rfl⟩ : ∃ (n : Fin 100000) (d : Fin 10), j = ix2 n d := ⟨j 0, j 1, eq_ix2 j⟩
  rw [val_main_v0_apply]
  refine (Cert.KernelIdeal.MmV.product (Cert.KernelIdeal.Rn.Vin0 m) c n d).trans (Finset.sum_congr rfl fun k _ => ?_)
  have el : lidx_main_v0 (ix2 n d) k = ix2 n k := funext fun a => Fin.ext (by
    match a with
    | ⟨0, _⟩ => rfl
    | ⟨1, _⟩ => rfl)
  have er : ridx_main_v0 (ix2 n d) k = ix2 k d := funext fun a => Fin.ext (by
    match a with
    | ⟨0, _⟩ => rfl
    | ⟨1, _⟩ => rfl)
  rw [el, er]

/-- The kernel program's second aggregate is the reference's, stage for stage, on the same arguments. -/
theorem aggregate_eq (c : Dev Cert.KernelIdeal.nD) :
    (Cert.KernelIdeal.Kv.aggK m c : (⟨Cert.ReferenceIdeal.S100000x10, .f32⟩ : BufTy).Contents (Elt Ideal))
      = Cert.ReferenceIdeal.Read.val_main_v21 (F := Ideal) (a0 m c) (a1 m c) (a4 m c) (a5 m c) := by
  have hP : Cert.KernelIdeal.Hv.prodIn (Cert.KernelIdeal.Rn.outs1 m) c = val_main_v0 (F := Ideal) (a0 m c) (a1 m c) :=
    (Cert.KernelIdeal.Rn.outs1_v0 m c).trans (prod_eq m c)
  show Cert.KernelIdeal.Hv.agg m (Cert.KernelIdeal.Rn.outs1 m) c = _
  rw [Cert.KernelIdeal.Hv.agg_eq, hP, aggOf_ref, ref_chain]

end Cert.Bridge

end
-- ==== Proof.RefValue.lean ====
/-
  The reference's result, graph by graph, is `PoolSpec.headR` of its own second aggregate.

  After the two neighbourhood sums (kept here as the one array `val_main_v21`, never opened), the reference
  multiplies every node's ten features by `W2`, scatter-adds the rows into 64 graph rows by graph id, scatter-adds
  ones to count each graph's nodes, divides by `max count 1`, multiplies by `W3` and applies
  `1 / (1 + exp (-z))`. A scatter-add's element is its operand's plus the sum of the updates that land on it, and
  an update row `n` lands on graph row `g` exactly when the signed graph id of `n` is `g`.
-/
import proofs.«431282_j74801150427782_3_alg».proof.Proof.Gen.ReferenceIdeal.Read
import proofs.«431282_j74801150427782_3_alg».proof.Proof.PoolSpec
import Idealize.ShloMosaic.Lib.IdealHost

noncomputable section

namespace Cert.RefValue

open Idealize.ShloMosaic Idealize.ShloMosaic.ValueIdx Cert.ReferenceIdeal Cert.ReferenceIdeal.Gen Cert.ReferenceIdeal.Read

/-- With the start and window coordinates of an update index known on both operand axes (start `t` and window `0`
    on the row axis, start `0` and window `e` on the column axis), the update lands on `(g, e')` exactly when
    `t = g` and `e = e'`. -/
theorem resultIdx_eq_some_iff {m : ℕ} (d : ScatterDims (⟨2, ![64, m]⟩ : Shape) S100000x1 (⟨2, ![100000, m]⟩ : Shape))
    (idx : IVec S100000x1 32) (n : Fin 100000) (e : Fin m) (t : ℤ)
    (s0 : d.start (ix2 n e) idx 0 = t) (s1 : d.start (ix2 n e) idx 1 = 0)
    (w0 : d.window (ix2 n e) 0 = 0) (w1 : d.window (ix2 n e) 1 = e.val) (g : Fin 64) (e' : Fin m) :
    d.resultIdx? (ix2 n e) idx = some (ix2 g e') ↔ t = (g.val : ℤ) ∧ e = e' := by
  unfold ScatterDims.resultIdx?
  split_ifs with h
  · rw [Option.some.injEq]
    constructor
    · intro hf
      have h0 : (d.start (ix2 n e) idx 0 + ↑(d.window (ix2 n e) 0)).toNat = g.val := congrArg Fin.val (congrFun hf 0)
      have h1 : (d.start (ix2 n e) idx 1 + ↑(d.window (ix2 n e) 1)).toNat = e'.val := congrArg Fin.val (congrFun hf 1)
      have hh0 := (h 0).1
      rw [s0, w0] at h0 hh0
      rw [s1, w1] at h1
      exact ⟨by omega, Fin.ext (by omega)⟩
    · rintro ⟨ht, rfl⟩
      funext a
      match a with
      | ⟨0, _⟩ =>
        apply Fin.ext
        show (d.start (ix2 n e) idx 0 + ↑(d.window (ix2 n e) 0)).toNat = g.val
        rw [s0, w0]; omega
      | ⟨1, _⟩ =>
        apply Fin.ext
        show (d.start (ix2 n e) idx 1 + ↑(d.window (ix2 n e) 1)).toNat = e.val
        rw [s1, w1]; omega
  · refine ⟨fun hx => (by cases hx), fun ⟨ht, he⟩ => (h ?_).elim⟩
    intro a
    match a with
    | ⟨0, _⟩ =>
      show 0 ≤ d.start (ix2 n e) idx 0 + ↑(d.window (ix2 n e) 0) ∧ d.start (ix2 n e) idx 0 + ↑(d.window (ix2 n e) 0) < ((64 : ℕ) : ℤ)
      rw [s0, w0]; have := g.isLt; omega
    | ⟨1, _⟩ =>
      show 0 ≤ d.start (ix2 n e) idx 1 + ↑(d.window (ix2 n e) 1) ∧ d.start (ix2 n e) idx 1 + ↑(d.window (ix2 n e) 1) < ((m : ℕ) : ℤ)
      rw [s1, w1]; have := e.isLt; omega

/-! ### The two scatter-adds' start and window coordinates -/

/-- First scatter-add: on the row axis an update's start is its node's index word, read signed. -/
theorem startA0 (n : Fin 100000) (e : Fin 10) (idx : IVec S100000x1 32) :
    scatter_S64x10_S100000x1_S100000x10_1_0_0_1.start (ix2 n e) idx 0 = (idx (ix2 n 0)).toInt := by
  unfold ScatterDims.start
  rw [dif_pos (by decide)]
  congr 2
  funext b
  match b with
  | ⟨0, _⟩ => exact Fin.ext rfl
  | ⟨1, _⟩ => exact Fin.ext rfl

/-- First scatter-add: on the column axis the start is zero. -/
theorem startA1 (n : Fin 100000) (e : Fin 10) (idx : IVec S100000x1 32) :
    scatter_S64x10_S100000x1_S100000x10_1_0_0_1.start (ix2 n e) idx 1 = 0 := by
  unfold ScatterDims.start
  rw [dif_neg (by decide)]

/-- First scatter-add: on the row axis the window coordinate is zero. -/
theorem windowA0 (n : Fin 100000) (e : Fin 10) :
    scatter_S64x10_S100000x1_S100000x10_1_0_0_1.window (ix2 n e) 0 = 0 := by
  unfold ScatterDims.window
  rw [dif_neg (by decide)]

/-- First scatter-add: on the column axis the window coordinate is the update's column. -/
theorem windowA1 (n : Fin 100000) (e : Fin 10) :
    scatter_S64x10_S100000x1_S100000x10_1_0_0_1.window (ix2 n e) 1 = e.val := by
  unfold ScatterDims.window
  rw [dif_pos (by decide)]
  rfl

/-- Second scatter-add: on the row axis an update's start is its node's index word, read signed. -/
theorem startB0 (n : Fin 100000) (e : Fin 1) (idx : IVec S100000x1 32) :
    scatter_S64x1_S100000x1_S100000x1_1_0_0_1.start (ix2 n e) idx 0 = (idx (ix2 n 0)).toInt := by
  unfold ScatterDims.start
  rw [dif_pos (by decide)]
  congr 2
  funext b
  match b with
  | ⟨0, _⟩ => exact Fin.ext rfl
  | ⟨1, _⟩ => exact Fin.ext rfl

/-- Second scatter-add: on the column axis the start is zero. -/
theorem startB1 (n : Fin 100000) (e : Fin 1) (idx : IVec S100000x1 32) :
    scatter_S64x1_S100000x1_S100000x1_1_0_0_1.start (ix2 n e) idx 1 = 0 := by
  unfold ScatterDims.start
  rw [dif_neg (by decide)]

/-- Second scatter-add: on the row axis the window coordinate is zero. -/
theorem windowB0 (n : Fin 100000) (e : Fin 1) :
    scatter_S64x1_S100000x1_S100000x1_1_0_0_1.window (ix2 n e) 0 = 0 := by
  unfold ScatterDims.window
  rw [dif_neg (by decide)]

/-- Second scatter-add: on the column axis the window coordinate is the update's column. -/
theorem windowB1 (n : Fin 100000) (e : Fin 1) :
    scatter_S64x1_S100000x1_S100000x1_1_0_0_1.window (ix2 n e) 1 = e.val := by
  unfold ScatterDims.window
  rw [dif_pos (by decide)]
  rfl

/-- A scatter-add whose updates land by the rule above: the element at `(g, e')` is the operand's plus the sum, over
    the update rows `n` whose signed index word is `g`, of the update at `(n, e')`. -/
theorem scatterAdd_row {m : ℕ} (d : ScatterDims (⟨2, ![64, m]⟩ : Shape) S100000x1 (⟨2, ![100000, m]⟩ : Shape))
    (idx : IVec S100000x1 32)
    (hres : ∀ (n : Fin 100000) (e : Fin m) (g : Fin 64) (e' : Fin m),
      d.resultIdx? (ix2 n e) idx = some (ix2 g e') ↔ (idx (ix2 n 0)).toInt = (g.val : ℤ) ∧ e = e')
    (x : (⟨2, ![64, m]⟩ : Shape).Idx → EReal) (upd : (⟨2, ![100000, m]⟩ : Shape).Idx → EReal) (g : Fin 64) (e' : Fin m) :
    Ideal.hostScatterAdd d x idx upd (ix2 g e')
      = x (ix2 g e') + ∑ n : Fin 100000, if (idx (ix2 n 0)).toInt = (g.val : ℤ) then upd (ix2 n e') else 0 := by
  unfold Ideal.hostScatterAdd
  refine congrArg (fun z => x (ix2 g e') + z) ?_
  rw [Finset.sum_filter, sum_idx2]
  refine Finset.sum_congr rfl fun n _ => ?_
  simp only [hres]
  by_cases ht : (idx (ix2 n 0)).toInt = (g.val : ℤ)
  · simp only [ht, true_and, if_true]
    rw [Finset.sum_ite_eq' Finset.univ e' (fun e => upd (ix2 n e)), if_pos (Finset.mem_univ _)]
  · simp only [ht, false_and, if_false, Finset.sum_const_zero]

/-- First scatter-add: update `(n, e)` lands on `(g, e')` exactly when node `n`'s signed index word is `g` and `e = e'`. -/
theorem resA (n : Fin 100000) (e : Fin 10) (idx : IVec S100000x1 32) (g : Fin 64) (e' : Fin 10) :
    scatter_S64x10_S100000x1_S100000x10_1_0_0_1.resultIdx? (ix2 n e) idx = some (ix2 g e')
      ↔ (idx (ix2 n 0)).toInt = (g.val : ℤ) ∧ e = e' :=
  resultIdx_eq_some_iff _ idx n e _ (startA0 n e idx) (startA1 n e idx) (windowA0 n e) (windowA1 n e) g e'

/-- Second scatter-add: update `(n, e)` lands on `(g, e')` exactly when node `n`'s signed index word is `g` and `e = e'`. -/
theorem resB (n : Fin 100000) (e : Fin 1) (idx : IVec S100000x1 32) (g : Fin 64) (e' : Fin 1) :
    scatter_S64x1_S100000x1_S100000x1_1_0_0_1.resultIdx? (ix2 n e) idx = some (ix2 g e')
      ↔ (idx (ix2 n 0)).toInt = (g.val : ℤ) ∧ e = e' :=
  resultIdx_eq_some_iff _ idx n e _ (startB0 n e idx) (startB1 n e idx) (windowB0 n e) (windowB1 n e) g e'

/-- The graph-id column the first scatter-add reads holds node `n`'s word in row `n`. -/
theorem gid24 (x6 : (⟨S100000, .i32⟩ : BufTy).Contents (Elt Ideal)) (n : Fin 100000) :
    val_main_v24 (F := Ideal) x6 (ix2 n (0 : Fin 1)) = x6 (ix1 n) := by
  rw [val_main_v24_apply]
  exact congrArg x6 (funext fun a => Fin.ext (by match a with | ⟨0, _⟩ => rfl))

/-- The graph-id column the second scatter-add reads holds node `n`'s word in row `n`. -/
theorem gid28 (x6 : (⟨S100000, .i32⟩ : BufTy).Contents (Elt Ideal)) (n : Fin 100000) :
    val_main_v28 (F := Ideal) x6 (ix2 n (0 : Fin 1)) = x6 (ix1 n) := by
  rw [val_main_v28_apply]
  exact congrArg x6 (funext fun a => Fin.ext (by match a with | ⟨0, _⟩ => rfl))

/-- Row `g`, column `e` of the first scatter-add is the pooled sum of the nodes' images under `W2`. -/
theorem v25_row (x0 : (⟨S100000x128, .f32⟩ : BufTy).Contents (Elt Ideal)) (x1 : (⟨S128x10, .f32⟩ : BufTy).Contents (Elt Ideal))
    (x2 : (⟨S10x10, .f32⟩ : BufTy).Contents (Elt Ideal))
    (x4 x5 : (⟨S3200000, .i32⟩ : BufTy).Contents (Elt Ideal)) (x6 : (⟨S100000, .i32⟩ : BufTy).Contents (Elt Ideal)) (g : Fin 64) (e : Fin 10) :
    val_main_v25 (F := Ideal) x0 x1 x2 x4 x5 x6 (ix2 g e)
      = Cert.PoolSpec.pooled (fun n => ∑ d : Fin 10, val_main_v21 (F := Ideal) x0 x1 x4 x5 (ix2 n d) * x2 (ix2 d e)) x6 g := by
  show Ideal.hostScatterAdd scatter_S64x10_S100000x1_S100000x10_1_0_0_1 (val_main_v23 (F := Ideal)) (val_main_v24 (F := Ideal) x6)
    (val_main_v22 (F := Ideal) x0 x1 x2 x4 x5) (ix2 g e) = _
  rw [scatterAdd_row _ _ (fun n e g e' => resA n e _ g e')]
  rw [val_main_v23_apply, val_main_cst_4_apply, Ideal.ofBits_def, Ideal.ofBits_zero_f32, zero_add]
  unfold Cert.PoolSpec.pooled
  refine Finset.sum_congr rfl fun n _ => ?_
  rw [gid24]
  have hv : val_main_v22 (F := Ideal) x0 x1 x2 x4 x5 (ix2 n e)
      = ∑ d : Fin 10, val_main_v21 (F := Ideal) x0 x1 x4 x5 (ix2 n d) * x2 (ix2 d e) := by
    rw [val_main_v22_apply]
    refine Finset.sum_congr rfl fun d _ => ?_
    have el : lidx_main_v22 (ix2 n e) d = ix2 n d :=
      funext fun a => Fin.ext (by match a with | ⟨0, _⟩ => rfl | ⟨1, _⟩ => rfl)
    have er : ridx_main_v22 (ix2 n e) d = ix2 d e :=
      funext fun a => Fin.ext (by match a with | ⟨0, _⟩ => rfl | ⟨1, _⟩ => rfl)
    rw [el, er]
  rw [hv]
  by_cases hg : (x6 (ix1 n)).toInt = (g.val : ℤ)
  · rw [if_pos hg, if_pos (show Cert.PoolSpec.InGraph x6 g n from hg)]
  · rw [if_neg hg, if_neg (show ¬ Cert.PoolSpec.InGraph x6 g n from hg)]

/-- Row `g` of the second scatter-add is the number of nodes of graph `g`. -/
theorem v29_row (x6 : (⟨S100000, .i32⟩ : BufTy).Contents (Elt Ideal)) (g : Fin 64) :
    val_main_v29 (F := Ideal) x6 (ix2 g (0 : Fin 1)) = Cert.PoolSpec.count x6 g := by
  show Ideal.hostScatterAdd scatter_S64x1_S100000x1_S100000x1_1_0_0_1 (val_main_v27 (F := Ideal)) (val_main_v28 (F := Ideal) x6)
    (val_main_v26 (F := Ideal)) (ix2 g (0 : Fin 1)) = _
  rw [scatterAdd_row _ _ (fun n e g e' => resB n e _ g e')]
  rw [val_main_v27_apply, val_main_cst_6_apply, Ideal.ofBits_def, Ideal.ofBits_zero_f32, zero_add]
  unfold Cert.PoolSpec.count Cert.PoolSpec.pooled
  refine Finset.sum_congr rfl fun n _ => ?_
  rw [gid28, val_main_v26_apply, val_main_cst_5_apply, Ideal.ofBits_def, Ideal.ofBits_one_f32]
  by_cases hg : (x6 (ix1 n)).toInt = (g.val : ℤ)
  · rw [if_pos hg, if_pos (show Cert.PoolSpec.InGraph x6 g n from hg)]
  · rw [if_neg hg, if_neg (show ¬ Cert.PoolSpec.InGraph x6 g n from hg)]

/-- Row `g` of the reference's result is the reference arrangement of the pooled head over its second aggregate. -/
theorem result_row (x0 : (⟨S100000x128, .f32⟩ : BufTy).Contents (Elt Ideal)) (x1 : (⟨S128x10, .f32⟩ : BufTy).Contents (Elt Ideal))
    (x2 : (⟨S10x10, .f32⟩ : BufTy).Contents (Elt Ideal)) (x3 : (⟨S10x1, .f32⟩ : BufTy).Contents (Elt Ideal))
    (x4 x5 : (⟨S3200000, .i32⟩ : BufTy).Contents (Elt Ideal)) (x6 : (⟨S100000, .i32⟩ : BufTy).Contents (Elt Ideal)) (g : Fin 64) :
    val_main_v40 (F := Ideal) x0 x1 x2 x3 x4 x5 x6 (ix2 g (0 : Fin 1))
      = Cert.PoolSpec.headR (fun n d => val_main_v21 (F := Ideal) x0 x1 x4 x5 (ix2 n d)) (fun d e => x2 (ix2 d e))
          (fun e => x3 (ix2 e (0 : Fin 1))) x6 g := by
  rw [val_main_v40_apply, val_main_v39_apply, val_main_cst_9_apply, val_main_v38_apply, val_main_v37_apply, val_main_cst_8_apply,
    val_main_v36_apply, val_main_v35_apply, val_main_v34_apply]
  simp only [Ideal.hostDivf_def, Ideal.ofBits_def, Ideal.ofBits_one_f32, Ideal.addf_def, Ideal.hostUnary_exp_def,
    Ideal.hostNegf_def, Ideal.negf_def]
  unfold Cert.PoolSpec.headR Ideal.logistic
  refine congrArg (fun z => Ideal.div 1 (1 + Ideal.exp (-z))) ?_
  refine Finset.sum_congr rfl fun k _ => ?_
  have el : lidx_main_v34 (ix2 g (0 : Fin 1)) k = ix2 g k :=
    funext fun a => Fin.ext (by match a with | ⟨0, _⟩ => rfl | ⟨1, _⟩ => rfl)
  have er : ridx_main_v34 (ix2 g (0 : Fin 1)) k = ix2 k (0 : Fin 1) :=
    funext fun a => Fin.ext (by match a with | ⟨0, _⟩ => rfl | ⟨1, _⟩ => rfl)
  have e32 : idx_main_v32 (ix2 g k) = ix2 g (0 : Fin 1) :=
    funext fun a => Fin.ext (by match a with | ⟨0, _⟩ => rfl | ⟨1, _⟩ => rfl)
  rw [el, er, val_main_v33_apply, Ideal.hostDivf_def, v25_row, val_main_v32_apply, e32, val_main_v31_apply, Ideal.maximumf_def,
    v29_row, val_main_v30_apply, val_main_cst_7_apply, Ideal.ofBits_def, Ideal.ofBits_one_f32]

end Cert.RefValue

end
-- ==== Proof.RefFinite.lean ====
/-
  The second aggregate is finite when the features and `W1` are.

  It is built from `features · W1` by a gather of rows, a scatter-add into zeros, a maximum with zero, a second
  gather and a second scatter-add into zeros. A finite sum of products of reals is a real; a gather only selects
  entries; a scatter-add's element is zero plus a finite sum of update entries; the maximum of two reals is a real.
-/
import proofs.«431282_j74801150427782_3_alg».proof.Proof.Gen.ReferenceIdeal.Read
import Mathlib.Data.EReal.Basic
import Mathlib.Algebra.BigOperators.Group.Finset.Basic

noncomputable section

namespace Cert.RefFinite

open Idealize.ShloMosaic Idealize.ShloMosaic.ValueIdx Cert.ReferenceIdeal Cert.ReferenceIdeal.Gen Cert.ReferenceIdeal.Read

/-! ## Extended reals that are reals -/

/-- Zero is a real. -/
theorem real_zero : ∃ r : ℝ, (0 : EReal) = (r : EReal) := ⟨0, EReal.coe_zero.symm⟩

/-- The sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- The product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- The maximum of two reals is a real: it is one of the two. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- A finite sum of reals is a real, over any finite set of indices. -/
theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => rw [Finset.sum_empty]; exact real_zero
  | insert a s ha ih =>
    rw [Finset.sum_insert ha]
    exact real_add (h a (Finset.mem_insert_self a s)) (ih fun i hi => h i (Finset.mem_insert_of_mem hi))

/-! ## One lemma per operation, over arbitrary real operand arrays -/

/-- A gather only selects entries of its operand: a gather of a real array is real, whatever the index words. -/
theorem gather_real {s si t : Shape} {w : Nat} (d : GatherDims s si t) (x : s.Idx → EReal) (idx : IVec si w)
    (hx : ∀ i, ∃ r : ℝ, x i = (r : EReal)) (j : t.Idx) :
    ∃ r : ℝ, Host.gather d x idx j = (r : EReal) := hx _

/-- An entry of a scatter-add is the operand's entry plus a finite sum of update entries: real when both arrays are. -/
theorem scatterAdd_real {φ : FTy} {s si u : Shape} {w : Nat} (d : ScatterDims s si u) (x : FVec Ideal s φ) (idx : IVec si w)
    (upd : FVec Ideal u φ) (hx : ∀ i, ∃ r : ℝ, x i = (r : EReal)) (hu : ∀ j, ∃ r : ℝ, upd j = (r : EReal)) (i : s.Idx) :
    ∃ r : ℝ, Host.scatterAdd (F := Ideal) d x idx upd i = (r : EReal) := by
  unfold Host.scatterAdd
  rw [Ideal.hostScatterAdd_def]
  unfold Ideal.hostScatterAdd
  exact real_add (hx i) (real_sum _ _ fun j _ => hu j)

/-- The pointwise maximum of two real arrays is real. -/
theorem maximumf_real {φ : FTy} {s : Shape} (a b : FVec Ideal s φ) (ha : ∀ i, ∃ r : ℝ, a i = (r : EReal))
    (hb : ∀ i, ∃ r : ℝ, b i = (r : EReal)) (i : s.Idx) : ∃ r : ℝ, maximumf a b i = (r : EReal) := by
  rw [maximumf_apply]
  exact real_max (ha i) (hb i)

/-! ## The stages -/

/-- The product of the features and `W1`: each entry is a finite sum of products of reals. -/
theorem v0_real (x0 : (⟨S100000x128, .f32⟩ : BufTy).Contents (Elt Ideal)) (x1 : (⟨S128x10, .f32⟩ : BufTy).Contents (Elt Ideal))
    (h0 : ∀ i, ∃ r : ℝ, x0 i = (r : EReal)) (h1 : ∀ i, ∃ r : ℝ, x1 i = (r : EReal)) :
    ∀ i, ∃ r : ℝ, val_main_v0 (F := Ideal) x0 x1 i = (r : EReal) := by
  intro i
  rw [val_main_v0_apply]
  exact real_sum _ _ fun k _ => real_mul (h0 _) (h1 _)

/-- The zero array the first scatter-add accumulates into. -/
theorem v8_real : ∀ i, ∃ r : ℝ, val_main_v8 (F := Ideal) i = (r : EReal) := by
  intro i
  rw [val_main_v8_apply, val_main_cst_apply]
  exact ⟨0, Ideal.ofBits_zero_f32.trans EReal.coe_zero.symm⟩

/-- The zero array of the maximum. -/
theorem call0_v0_real : ∀ i, ∃ r : ℝ, val_main_call0_v0 (F := Ideal) i = (r : EReal) := by
  intro i
  rw [val_main_call0_v0_apply, val_main_call0_cst_apply]
  exact ⟨0, Ideal.ofBits_zero_f32.trans EReal.coe_zero.symm⟩

/-- The zero array the second scatter-add accumulates into. -/
theorem v19_real : ∀ i, ∃ r : ℝ, val_main_v19 (F := Ideal) i = (r : EReal) := by
  intro i
  rw [val_main_v19_apply, val_main_cst_3_apply]
  exact ⟨0, Ideal.ofBits_zero_f32.trans EReal.coe_zero.symm⟩

/-- Every entry of the second aggregate is a real when every entry of the features and of `W1` is. -/
theorem aggregate_real (x0 : (⟨S100000x128, .f32⟩ : BufTy).Contents (Elt Ideal)) (x1 : (⟨S128x10, .f32⟩ : BufTy).Contents (Elt Ideal))
    (x4 x5 : (⟨S3200000, .i32⟩ : BufTy).Contents (Elt Ideal))
    (h0 : ∀ i, ∃ r : ℝ, x0 i = (r : EReal)) (h1 : ∀ i, ∃ r : ℝ, x1 i = (r : EReal)) :
    ∀ j, ∃ r : ℝ, val_main_v21 (F := Ideal) x0 x1 x4 x5 j = (r : EReal) := by
  have hv0 := v0_real x0 x1 h0 h1
  have hv7 : ∀ j, ∃ r : ℝ, val_main_v7 (F := Ideal) x0 x1 x4 j = (r : EReal) := by
    intro j; unfold val_main_v7; exact gather_real _ _ _ hv0 j
  have hv10 : ∀ j, ∃ r : ℝ, val_main_v10 (F := Ideal) x0 x1 x4 x5 j = (r : EReal) := by
    intro j; unfold val_main_v10; exact scatterAdd_real _ _ _ _ v8_real hv7 j
  have hv11 : ∀ j, ∃ r : ℝ, val_main_v11 (F := Ideal) x0 x1 x4 x5 j = (r : EReal) := by
    intro j; unfold val_main_v11; exact maximumf_real _ _ hv10 call0_v0_real j
  have hv18 : ∀ j, ∃ r : ℝ, val_main_v18 (F := Ideal) x0 x1 x4 x5 j = (r : EReal) := by
    intro j; unfold val_main_v18; exact gather_real _ _ _ hv11 j
  intro j
  unfold val_main_v21
  exact scatterAdd_real _ _ _ _ v19_real hv18 j

end Cert.RefFinite

end
-- ==== Proof.PreFinite.lean ====
/-
  The precondition read back: every entry of the four float arguments is a real number.

  The printed predicate is the conjunction, over the four float arrays, of "every |x| < +inf"; on the extended
  reals |x| < +inf excludes both infinities, so each entry is the image of a real.
-/
import proofs.«431282_j74801150427782_3_alg».proof.Pre_finite_inputs
import proofs.«431282_j74801150427782_3_alg».proof.Proof.Gen.Pre_finite_inputs
import Idealize.ShloMosaic.PureOps.Ideal
import Idealize.ShloMosaic.Lib.ReduceAll

noncomputable section

namespace Cert.PreFinite

open Idealize.ShloMosaic Cert.Pre_finite_inputs

variable [Cert.Pre_finite_inputs.Facts]
/-- The scalar shape has one index. -/
instance : Subsingleton S_.Idx := ⟨fun a b => funext fun d => d.elim0⟩

/-- On the extended reals, `|x| < +inf` (the comparison word is 1) makes `x` the image of a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array: the all-reduce by `and` of the entrywise `|x| < +inf` being 1 makes every entry real. -/
theorem reals_of_all {s : Shape} {axes : List (Fin s.rank)} (a : FVec Ideal s .f32)
    (hb : S_.BroadcastsInDim s (![] : Fin 0 → Fin s.rank))
    (hr : s.ReducesTo axes S_) (hu : 0 < S_.numel) (j : S_.Idx)
    (e : Host.reduce IntOp.andi (cmpf .olt (Host.absf a) (broadcastInDim s ![] hb (constant (F := Ideal) S_ .f32 0x7F800000#32)))
      (constantI S_ 1 1#1) hr hu j = 1#1) (i : s.Idx) : ∃ r : ℝ, a i = (r : EReal) := by
  have := Host.reduce_andi_all _ _ hr hu j e i
  exact real_of_abs_lt_inf (a i) this

/-- If the finiteness predicate is all ones on the seven arguments, the four float arrays hold reals only. -/
theorem reals_of_pre (a0 : FVec Ideal S100000x128 .f32) (a1 : FVec Ideal S128x10 .f32) (a2 : FVec Ideal S10x10 .f32)
    (a3 : FVec Ideal S10x1 .f32) (a4 a5 : IVec S3200000 32) (a6 : IVec S100000 32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h (fun d => d.elim0)
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨reals_of_all a0 _ _ _ _ e0, reals_of_all a1 _ _ _ _ e1, reals_of_all a2 _ _ _ _ e2,
    reals_of_all a3 _ _ _ _ e3⟩

end Cert.PreFinite

end
-- ==== Proof.Bridge.lean ====
/-
  The two programs' results are equal when their arguments are, on finite float arguments.

  Both programs compute the same second aggregate: the first launch's product is the reference's matrix product
  (each entry the sum over the 128 contracted positions), and the host operations between the launches are the
  reference's own, operation for operation. On that aggregate the kernel program computes `PoolSpec.headK` and the
  reference `PoolSpec.headR`, which agree on finite data; the aggregate is finite when the features and `W1` are,
  and the precondition makes all four float arguments finite.
-/
import proofs.«431282_j74801150427782_3_alg».proof.Proof.KernelValue
import proofs.«431282_j74801150427782_3_alg».proof.Proof.AggEq
import proofs.«431282_j74801150427782_3_alg».proof.Proof.RefValue
import proofs.«431282_j74801150427782_3_alg».proof.Proof.RefFinite
import proofs.«431282_j74801150427782_3_alg».proof.Proof.PreFinite
import proofs.«431282_j74801150427782_3_alg».proof.Defs

set_option maxRecDepth 16384

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)

/-- Under the precondition the kernel program's result array is the reference's result term at the same arguments:
    graph by graph the reference computes `headR` and the kernel program `headK` of one and the same aggregate, and
    the two agree on finite data. -/
theorem result_eq (hpre : Cert.Pre_KernelIdeal m) (c : Dev Cert.KernelIdeal.nD) :
    Cert.ReferenceIdeal.Read.val_main_v40 (F := Ideal) (a0 m c) (a1 m c) (a2 m c) (a3 m c) (a4 m c) (a5 m c) (a6 m c)
      = (Cert.KernelIdeal.Kv.out m c : (⟨Cert.ReferenceIdeal.S64x1, .f32⟩ : BufTy).Contents (Elt Ideal)) := by
  funext i
  obtain ⟨g, z, rfl⟩ : ∃ (g : Fin 64) (z : Fin 1), i = ix2 g z := ⟨i 0, i 1, eq_ix2 i⟩
  obtain rfl : z = 0 := Subsingleton.elim _ _
  obtain ⟨h0, h1, h2, h3⟩ := Cert.PreFinite.reals_of_pre _ _ _ _ _ _ _ (hpre c)
  have hA := Cert.RefFinite.aggregate_real (a0 m c) (a1 m c) (a4 m c) (a5 m c) h0 h1
  rw [Cert.RefValue.result_row]
  refine Eq.trans ?_ (Cert.KernelIdeal.Kv.kernel_row m c g).symm
  rw [Cert.PoolSpec.headK_eq_headR _ _ _ _ _ (fun n d => by rw [aggregate_eq]; exact hA _) (fun d e => h2 _) (fun e => h3 _)]
  rw [aggregate_eq]

end Cert.Bridge

end
-- ==== Proof.lean ====
/-
  Two programs for a two-layer graph network with mean pooling: node features times `W1`, two neighbourhood sums
  over 3.2 million edges (with a clamp at zero between them), then per-graph mean pooling over 64 graphs, two more
  linear maps and the logistic function.

  The reference applies `W2` to every node, pools, divides by the node count (at least one), applies `W3`. The
  kernel program computes `features · W1` in a first launch (ten row blocks), keeps the neighbourhood sums on the
  host as the reference does, and in a second launch (eight row blocks of the aggregate padded to 102400 rows, the
  pad rows given graph id 64, which is no graph) accumulates per graph the raw sums and the counts with a one-hot
  matrix product, and at the last block divides, applies the product `W2 · W3` and the logistic function. Over the
  reals the two are equal by linearity of the pooling sum and associativity of the matrix products; on the extended
  reals that needs every float input finite, which is the precondition.

  Frames: each kernel program runs to the end, faults nowhere and leaves its arguments as launched (`Rn.run`, whose
  post also names the result buffer; the accumulators carried from block to block are part of the second launch's
  invariant); the reference's frame is its run with the result dropped. No idealization rewrite was applied, so
  the two kernel programs are one text and the sanctioned-idealization claim is empty.
-/
import proofs.«431282_j74801150427782_3_alg».proof.Defs
import proofs.«431282_j74801150427782_3_alg».proof.Proof.Gen.Kernel
import proofs.«431282_j74801150427782_3_alg».proof.Proof.Gen.KernelIdeal
import proofs.«431282_j74801150427782_3_alg».proof.Proof.Gen.ReferenceIdeal
import proofs.«431282_j74801150427782_3_alg».proof.Proof.Gen.ReferenceIdeal.Run
import proofs.«431282_j74801150427782_3_alg».proof.Proof.Gen.ReferenceIdeal.Read
import proofs.«431282_j74801150427782_3_alg».proof.Proof.Gen.Pre_finite_inputs
import proofs.«431282_j74801150427782_3_alg».proof.Proof.KRun
import proofs.«431282_j74801150427782_3_alg».proof.Proof.Run
import proofs.«431282_j74801150427782_3_alg».proof.Proof.Bridge
import Idealize.ShloMosaic.Adequacy
import Idealize.ShloMosaic.Init

noncomputable section

namespace Cert.Proof

open Idealize.ShloMosaic Idealize.SL.Sem

/-- The program as printed runs and keeps its arguments: the run at the word-level instance, the result dropped. -/
theorem frame_k : Cert.frame_Kernel := fun m ρ _ =>
  (θ_run (Cert.Kernel.defs (F := Bits)) _ _).mono (fun _ h c => (h c).2) (Cert.Kernel.Rn.run (F := Bits) m ρ)

/-- The idealized kernel program runs and keeps its arguments. -/
theorem frame_ki : Cert.frame_KernelIdeal := fun m ρ _ =>
  (θ_run (Cert.KernelIdeal.defs (F := Ideal)) _ _).mono (fun _ h c => (h c).2) (Cert.KernelIdeal.Rn.run (F := Ideal) m ρ)

/-- The reference runs and keeps its arguments: its run with the result dropped. -/
theorem frame_r : Cert.frame_ReferenceIdeal := fun m ρ _ =>
  (θ_run (Cert.ReferenceIdeal.defs (F := Ideal)) _ _).mono (fun _ h c => (h c).2) (Cert.ReferenceIdeal.Value.run (F := Ideal) m ρ)

/-- From memories agreeing on the arguments both programs end with one result array: the kernel program's run
    names it, and the reference's result term at the same arguments is that array. -/
theorem algebraic : Cert.algebraic_KernelIdeal_ReferenceIdeal := by
  intro m ρ m' ρ' hpre hagree
  refine ⟨fun c => Cert.KernelIdeal.Rn.plOut (F := Ideal) m c, Cert.KernelIdeal.Rn.run (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v40_eq (F := Ideal) _ _ _ _ _ _ _).trans (Cert.Bridge.result_eq m hpre c)

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
